-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S3x16x4096 : Shape := ⟨3, ![3, 16, 4096]⟩
abbrev S16x4096 : Shape := ⟨2, ![16, 4096]⟩
abbrev S3x8x256 : Shape := ⟨3, ![3, 8, 256]⟩
abbrev S3x8x4096 : Shape := ⟨3, ![3, 8, 4096]⟩
abbrev S8x256 : Shape := ⟨2, ![8, 256]⟩
abbrev S8x4096 : Shape := ⟨2, ![8, 4096]⟩
abbrev S1x8x256 : Shape := ⟨3, ![1, 8, 256]⟩
abbrev S1x8x4096 : Shape := ⟨3, ![1, 8, 4096]⟩
abbrev S8x256x1 : Shape := ⟨3, ![8, 256, 1]⟩
abbrev S8x1x256 : Shape := ⟨3, ![8, 1, 256]⟩
abbrev S8x256x256 : Shape := ⟨3, ![8, 256, 256]⟩
abbrev S_ : Shape := ⟨0, ![]⟩
abbrev S16 : Shape := ⟨1, ![16]⟩

abbrev nBuf : Space → Nat
  | .hbm => 24
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S3x16x4096, .f32⟩
  | .hbm, ⟨3, _⟩ => ⟨S3x16x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S3x8x256, .f32⟩
  | .local _ .vmem, ⟨1, _⟩ => ⟨S3x8x256, .f32⟩
  | .local _ .vmem, ⟨2, _⟩ => ⟨S3x8x4096, .f32⟩
  | .local _ .vmem, ⟨3, _⟩ => ⟨S3x8x4096, .f32⟩
  | .local _ .vmem, ⟨4, _⟩ => ⟨S8x256, .f32⟩
  | .local _ .vmem, ⟨5, _⟩ => ⟨S8x256, .f32⟩
  | .local _ .vmem, ⟨6, _⟩ => ⟨S8x4096, .f32⟩
  | .local _ .vmem, ⟨7, _⟩ => ⟨S8x4096, .f32⟩
  | .local _ .vmem, ⟨8, _⟩ => ⟨S8x256, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c16_i32 : BitVec 32 := 16#32
  let v18 : BitVec 32 := Scalar.addi c0_i32_9 c16_i32
  let c1_i32 : BitVec 32 := 1#32
  ⟨c0_i32_9, v18, c1_i32⟩
def k0_mult1 (k0_t1 : Fin k0_t1_loop.trips) : BitVec 32 :=
  let c0_i32_16 : BitVec 32 := 0#32
  let c0_i32_9 : BitVec 32 := 0#32
  let c1_i32 : BitVec 32 := 1#32
  let arg7 : BitVec 32 := Scf.iv c0_i32_9 c1_i32 k0_t1
  let c1_i32_15 : BitVec 32 := 1#32
  let v21 : BitVec 32 := Scalar.muli arg7 c1_i32_15
  let v22 : BitVec 32 := Scalar.addi c0_i32_16 v21
  let c256_i32 : BitVec 32 := 256#32
  let v23 : BitVec 32 := Scalar.muli v22 c256_i32
  v23
def k0_off1 (k0_t1 : Fin k0_t1_loop.trips) : Fin 2 → Nat :=
  let c0_20 : Index := 0#32
  let c0_i32_16 : BitVec 32 := 0#32
  let c0_i32_9 : BitVec 32 := 0#32
  let c1_i32 : BitVec 32 := 1#32
  let arg7 : BitVec 32 := Scf.iv c0_i32_9 c1_i32 k0_t1
  let c1_i32_15 : BitVec 32 := 1#32
  let v21 : BitVec 32 := Scalar.muli arg7 c1_i32_15
  let v22 : BitVec 32 := Scalar.addi c0_i32_16 v21
  let c256_i32 : BitVec 32 := 256#32
  let v23 : BitVec 32 := Scalar.muli v22 c256_i32
  let v24 : BitVec 32 := v23
  let v27 : Index := Scalar.indexCast v24
  ![0, v27.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S3x16x4096_2_0_1 : S16x4096x3.Transposes [2, 0, 1] S3x16x4096
  inb_S8x4096_S8x4096_0_0 : ∀ a, (![0, 0] : Fin 2 → Nat) a + S8x4096.size a ≤ S8x4096.size a
  h_S8x4096 : 0 < S8x4096.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S3x8x256_S1x8x256_0_0_0 : ∀ a, (![0, 0, 0] : Fin 3 → Nat) a + S1x8x256.size a ≤ S3x8x256.size a
  h_S1x8x256 : 0 < S1x8x256.numel
  shapeCasts_S1x8x256_S8x256 : S1x8x256.ShapeCasts S8x256
  inb_S3x8x256_S1x8x256_1_0_0 : ∀ a, (![1, 0, 0] : Fin 3 → Nat) a + S1x8x256.size a ≤ S3x8x256.size a
  inb_S3x8x256_S1x8x256_2_0_0 : ∀ a, (![2, 0, 0] : Fin 3 → Nat) a + S1x8x256.size a ≤ S3x8x256.size a
  inb_S3x8x4096_S1x8x4096_0_0_0 : ∀ a, (![0, 0, 0] : Fin 3 → Nat) a + S1x8x4096.size a ≤ S3x8x4096.size a
  squeezes_S1x8x4096_S8x4096 : S1x8x4096.Squeezes S8x4096
  inb_S3x8x4096_S1x8x4096_1_0_0 : ∀ a, (![1, 0, 0] : Fin 3 → Nat) a + S1x8x4096.size a ≤ S3x8x4096.size a
  inb_S3x8x4096_S1x8x4096_2_0_0 : ∀ a, (![2, 0, 0] : Fin 3 → Nat) a + S1x8x4096.size a ≤ S3x8x4096.size a
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x256.size a ≤ S3x16x4096.size a
  hwx0_0 : ∀ i : grid0.Coords, EltTy.bits .f32 = 32 ∨ (Rect.block (s := S3x16x4096) S3x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8x4096.size a ≤ S3x16x4096.size a
  hwx0_1 : ∀ i : grid0.Coords, EltTy.bits .f32 = 32 ∨ (Rect.block (s := S3x16x4096) S3x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x4096.size a
  hwx0_2 : ∀ i : grid0.Coords, EltTy.bits .f32 = 32 ∨ (Rect.block (s := S16x4096) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S16x4096.size a
  hwx0_3 : ∀ i : grid0.Coords, EltTy.bits .f32 = 32 ∨ (Rect.block (s := S16x4096) S8x4096.size (cc0_transform_3 i) (hinb0_3 i)).WholeWords (EltTy.packing .f32)

variable [Facts₀]

abbrev win0_0 : Pipeline.Window sig grid0 :=
  Pipeline.Window.ofSpec (Memref.whole main_v0) S3x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16x4096x4096_S16x4096_d1 : S16x4096x4096.ReducesTo [1] S16x4096
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Loop.lean ====
/-
  The counted loop of the pairwise-distance body, by its invariant, with the target block held WHOLE.

  One trip (column chunk `k` of the 4096 target points, 256 of them) reads the three coordinate planes of the target
  block at columns `256 k … 256 k + 255` — three slabs of ONE staged block —, folds the chunk's column minima into the
  same columns of the column-minimum block and the chunk's row minima into the row accumulator. The invariant before trip
  `k`: the target block as it was handed over, and the two written blocks at the pieces of the trips before `k` laid
  over what they held when the loop was entered. Each trip's pieces are functions of what the trip finds in the two
  blocks, because it loads back what it is about to overwrite.
-/
import proofs.«140327_j80092550135919_1_alg».proof.Proof.Gen.Kernel.Skeleton
import proofs.«140327_j80092550135919_1_alg».proof.Proof.Gen.Kernel.Loops
import Idealize.ShloMosaic.Lib.Exec
import Idealize.ShloMosaic.Lib.Tactic
import Idealize.ShloMosaic.Lib.Pipeline.Kit

set_option maxRecDepth 8192
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S3x8x256 .f32) (harg2 : arg2.IsWhole) (arg3 : Memref sig .tc .vmem S3x8x4096 .f32) (harg3 : arg3.IsWhole)
  (arg4 : Memref sig .tc .vmem S8x256 .f32) (harg4 : arg4.IsWhole) (arg5 : Memref sig .tc .vmem S8x4096 .f32) (harg5 : arg5.IsWhole)
  (arg6 : Memref sig .tc .vmem S8x256 .f32) (harg6 : arg6.IsWhole)
  (v7 : Vec F S1x8x256 .f32) (v9 : Vec F S1x8x256 .f32) (v11 : Vec F S1x8x256 .f32)
  (X3 : BufTy.Contents (Elt F) arg3.view.ty)
  (G5 : BufTy.Contents (Elt F) arg5.view.ty) (G6 : BufTy.Contents (Elt F) arg6.view.ty)

/-- One trip's resources: the target block at its contents, the two written blocks at any. -/
abbrev TripW (f5 : BufTy.Contents (Elt F) arg5.view.ty) (f6 : BufTy.Contents (Elt F) arg6.view.ty) : sProp 𝕄G :=
  iprop((arg3.view.loc (c : Thread nD τ) ↦[arg3.view.set]{fullShare} X3) ∗ (arg5.view.loc (c : Thread nD τ) ↦[arg5.view.set]{fullShare} f5) ∗ (arg6.view.loc (c : Thread nD τ) ↦[arg6.view.set]{fullShare} f6))

/-- ONE TRIP at a symbolic `k`: from the trip's resources to the same with the trip's pieces written — the pieces
    (one store into the column-minimum block at the chunk's columns, one into the whole row accumulator) are what the
    run finds, as functions of the contents the trip meets in the two blocks. -/
@[irreducible] def tripW (k : Fin k0_t1_loop.trips) :
    Σ' (L5 : (BufTy.Contents (Elt F) arg5.view.ty → BufTy.Contents (Elt F) arg6.view.ty → List (View.Piece (Elt F) S8x4096 .f32))),
      { L6 : (BufTy.Contents (Elt F) arg5.view.ty → BufTy.Contents (Elt F) arg6.view.ty → List (View.Piece (Elt F) S8x256 .f32)) //
        ∀ (E : Set ℕ) (f5 : BufTy.Contents (Elt F) arg5.view.ty) (f6 : BufTy.Contents (Elt F) arg6.view.ty),
          TripW (F := F) c arg3 arg5 arg6 X3 f5 f6
          ⊢ wp frame (wpE (defs₀ (F := F)) 𝒱 (c : Thread nD τ) bd) E (k0_t1_body (F := F) i arg2 harg2 arg3 harg3 arg4 harg4 arg5 harg5 arg6 harg6 v7 v9 v11 k PUnit.unit)
              (fun _ => TripW (F := F) c arg3 arg5 arg6 X3 (arg5.view.writes (Elt F) f5 (L5 f5 f6)) (arg6.view.writes (Elt F) f6 (L6 f5 f6))) } := by
  have hk : k.val < 16 := Nat.lt_of_lt_of_le k.isLt k0_t1_abs.2.1
  refine ⟨?_, ?_, fun E f5 f6 => ?run⟩
  case run =>
    unfold k0_t1_body
    iintro ⟨HR_arg3, HW_arg5, HW_arg6⟩
    sl_exec
    sl_step
    sl_close

/-- The trip's two piece lists, at the contents the trip finds. -/
abbrev tripLW (k : Fin k0_t1_loop.trips) (f5 : BufTy.Contents (Elt F) arg5.view.ty) (f6 : BufTy.Contents (Elt F) arg6.view.ty) :
    List (View.Piece (Elt F) S8x4096 .f32) × List (View.Piece (Elt F) S8x256 .f32) :=
  ((tripW (F := F) 𝒱 c bd i arg2 harg2 arg3 harg3 arg4 harg4 arg5 harg5 arg6 harg6 v7 v9 v11 X3 k).1 f5 f6,
   (tripW (F := F) 𝒱 c bd i arg2 harg2 arg3 harg3 arg4 harg4 arg5 harg5 arg6 harg6 v7 v9 v11 X3 k).2.1 f5 f6)

/-- Trip `k`'s pieces in front of the earlier ones, taken at the contents the earlier trips left; past the last trip nothing. -/
@[irreducible] def pbStepW (k : ℕ) (prev : List (View.Piece (Elt F) S8x4096 .f32) × List (View.Piece (Elt F) S8x256 .f32)) :
    List (View.Piece (Elt F) S8x4096 .f32) × List (View.Piece (Elt F) S8x256 .f32) :=
  if h : k < k0_t1_loop.trips then
    ((tripLW (F := F) 𝒱 c bd i arg2 harg2 arg3 harg3 arg4 harg4 arg5 harg5 arg6 harg6 v7 v9 v11 X3 ⟨k, h⟩ (arg5.view.writes (Elt F) G5 prev.1) (arg6.view.writes (Elt F) G6 prev.2)).1 ++ prev.1,
     (tripLW (F := F) 𝒱 c bd i arg2 harg2 arg3 harg3 arg4 harg4 arg5 harg5 arg6 harg6 v7 v9 v11 X3 ⟨k, h⟩ (arg5.view.writes (Elt F) G5 prev.1) (arg6.view.writes (Elt F) G6 prev.2)).2 ++ prev.2)
  else prev

/-- The pieces of the trips before `k` (last first), over the contents `G5`, `G6` at loop entry. -/
def pbW : ℕ → List (View.Piece (Elt F) S8x4096 .f32) × List (View.Piece (Elt F) S8x256 .f32)
  | 0 => ([], [])
  | k + 1 => pbStepW (F := F) 𝒱 c bd i arg2 harg2 arg3 harg3 arg4 harg4 arg5 harg5 arg6 harg6 v7 v9 v11 X3 G5 G6 k
      (pbW k)

theorem pbW_succ (k : Fin k0_t1_loop.trips) :
    pbW (F := F) 𝒱 c bd i arg2 harg2 arg3 harg3 arg4 harg4 arg5 harg5 arg6 harg6 v7 v9 v11 X3 G5 G6 (k.val + 1)
      = ((tripLW (F := F) 𝒱 c bd i arg2 harg2 arg3 harg3 arg4 harg4 arg5 harg5 arg6 harg6 v7 v9 v11 X3 k
            (arg5.view.writes (Elt F) G5 (pbW (F := F) 𝒱 c bd i arg2 harg2 arg3 harg3 arg4 harg4 arg5 harg5 arg6 harg6 v7 v9 v11 X3 G5 G6 k.val).1)
            (arg6.view.writes (Elt F) G6 (pbW (F := F) 𝒱 c bd i arg2 harg2 arg3 harg3 arg4 harg4 arg5 harg5 arg6 harg6 v7 v9 v11 X3 G5 G6 k.val).2)).1
          ++ (pbW (F := F) 𝒱 c bd i arg2 harg2 arg3 harg3 arg4 harg4 arg5 harg5 arg6 harg6 v7 v9 v11 X3 G5 G6 k.val).1,
         (tripLW (F := F) 𝒱 c bd i arg2 harg2 arg3 harg3 arg4 harg4 arg5 harg5 arg6 harg6 v7 v9 v11 X3 k
            (arg5.view.writes (Elt F) G5 (pbW (F := F) 𝒱 c bd i arg2 harg2 arg3 harg3 arg4 harg4 arg5 harg5 arg6 harg6 v7 v9 v11 X3 G5 G6 k.val).1)
            (arg6.view.writes (Elt F) G6 (pbW (F := F) 𝒱 c bd i arg2 harg2 arg3 harg3 arg4 harg4 arg5 harg5 arg6 harg6 v7 v9 v11 X3 G5 G6 k.val).2)).2
          ++ (pbW (F := F) 𝒱 c bd i arg2 harg2 arg3 harg3 arg4 harg4 arg5 harg5 arg6 harg6 v7 v9 v11 X3 G5 G6 k.val).2) := by
  rw [pbW.eq_2]; unfold pbStepW; exact dif_pos k.isLt

/-- THE INVARIANT before trip `k`: the target block at `X3`; each written block at the pieces of the trips before `k`
    over its contents at loop entry. -/
abbrev invW (k : ℕ) (_u : PUnit) : sProp 𝕄G :=
  iprop((arg3.view.loc (c : Thread nD τ) ↦[arg3.view.set]{fullShare} X3)
    ∗ (∃ f, (arg5.view.loc (c : Thread nD τ) ↦[arg5.view.set]{fullShare} f) ∗ ⌜f = arg5.view.writes (Elt F) G5 (pbW (F := F) 𝒱 c bd i arg2 harg2 arg3 harg3 arg4 harg4 arg5 harg5 arg6 harg6 v7 v9 v11 X3 G5 G6 k).1⌝)
    ∗ (∃ f, (arg6.view.loc (c : Thread nD τ) ↦[arg6.view.set]{fullShare} f) ∗ ⌜f = arg6.view.writes (Elt F) G6 (pbW (F := F) 𝒱 c bd i arg2 harg2 arg3 harg3 arg4 harg4 arg5 harg5 arg6 harg6 v7 v9 v11 X3 G5 G6 k).2⌝))

set_option warn.classDefReducibility false in
/-- The loop by that invariant: a trip's pieces go in front of the earlier ones. -/
@[sl_loop] def loopInvW :
    LoopInvTy_k0_t1 (F := F) Unit ℕ (UR sig nD τ) ℕ 𝒱 c bd E i arg2 harg2 arg3 harg3 arg4 harg4 arg5 harg5 arg6 harg6 v7 v9 v11 where
  inv := invW (F := F) 𝒱 c bd i arg2 harg2 arg3 harg3 arg4 harg4 arg5 harg5 arg6 harg6 v7 v9 v11 X3 G5 G6
  step k acc := by
    iintro ⟨HR_arg3, ⟨%f5, HW_arg5, %h5⟩, ⟨%f6, HW_arg6, %h6⟩⟩
    iapply (wp_wand_r Idealize.ShloMosaic.frame (wpE (defs₀ (F := F)) 𝒱 (c : Thread nD τ) bd) E)
    isplitl [HR_arg3 HW_arg5 HW_arg6]
    · iapply ((tripW (F := F) 𝒱 c bd i arg2 harg2 arg3 harg3 arg4 harg4 arg5 harg5 arg6 harg6 v7 v9 v11 X3 k).2.2 E f5 f6)
      isplitl [HR_arg3]; · iexact HR_arg3
      isplitl [HW_arg5]; · iexact HW_arg5
      iexact HW_arg6
    · iintro %_ ⟨HR_arg3, HW_arg5, HW_arg6⟩
      isplitl [HR_arg3]; · iexact HR_arg3
      rw [pbW_succ]
      isplitl [HW_arg5]
      · iexists _; isplitl [HW_arg5]; · iexact HW_arg5
        ipureintro; rw [h5, h6, ← View.writes_append]
      iexists _; isplitl [HW_arg6]; · iexact HW_arg6
      ipureintro; rw [h5, h6, ← View.writes_append]

end Cert.Kernel.Body

end
-- ==== Proof.K.Run.lean ====
/-
  The pairwise-distance body run once per control case.

  At a grid point (batch group, row tile) the body resets the column-minimum block to +∞ only at the group's FIRST row
  tile, resets the row accumulator to +∞ always, folds sixteen column chunks into both (the loop), and copies the row
  accumulator out. So there are two cases: the first tile, where the column-minimum block is rebuilt from +∞, and a later
  tile, where it is folded into what the tile before left. In both, what each written block ends with is a list of
  pieces the run finds; read back over arbitrary prior contents it is a function of the point's input blocks alone
  (and, at a later tile, of the column-minimum block as found), because the pieces cover the block or the prior contents
  are the known ones.
-/
import proofs.«140327_j80092550135919_1_alg».proof.Proof.Gen.Kernel.Frame
import proofs.«140327_j80092550135919_1_alg».proof.Proof.Gen.Kernel.Skeleton
import proofs.«140327_j80092550135919_1_alg».proof.Proof.K.Loop
import Idealize.ShloMosaic.Lib.Tactic
import Idealize.ShloMosaic.Lib.Ring

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The body's test "this is the first row tile of its batch group", as it is computed from the grid coordinates. -/
abbrev firstTile (i : grid0.Coords) : Prop :=
  Scalar.cmpi .ne (Scalar.extui (Scalar.cmpi .eq (BitVec.ofNat 32 (i 1).val) 0#32)) 0#32 = 1#1

/-- THE FIRST TILE. From the two input blocks, and the three written blocks at anything, the body ends with the input
    blocks as they were, the row-minimum block and the column-minimum block each at a list of pieces the run finds
    written over what they held, and the row accumulator at something. -/
noncomputable def runFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i)
    (x2 : Vec F S3x8x256 .f32) (x3 : Vec F S3x8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) M2 fullShare x2 ∗ owns (c : Thread nD τ) M3 fullShare x3
            ∗ (∃ d, owns (c : Thread nD τ) M4 fullShare d) ∗ (∃ d, owns (c : Thread nD τ) M5 fullShare d) ∗ (∃ d, owns (c : Thread nD τ) M6 fullShare d)
            ∗ (iprop(owns (c : Thread nD τ) M2 fullShare x2 ∗ owns (c : Thread nD τ) M3 fullShare x3
                ∗ (∃ f, M4.view.loc (c : Thread nD τ) ↦[M4.view.set]{fullShare} M4.view.writes (Elt F) f L4)
                ∗ (∃ f, M5.view.loc (c : Thread nD τ) ↦[M5.view.set]{fullShare} M5.view.writes (Elt F) f L5)
                ∗ (∃ d, owns (c : Thread nD τ) M6 fullShare d)) -∗ K ⟨⟩))
          ⊢ wp frame (wpE (defs₀ (F := F)) 𝒱₀ c none) E (cc0__nn_kernel i M2 h2 M3 h3 M4 h4 M5 h5 M6 h6) K } := by
  refine ⟨?_, ?_, fun E K => ?run⟩
  case run =>
    unfold owns
    iintro ⟨⟨%f2, %hf2, H2⟩, ⟨%f3, %hf3, H3⟩, ⟨%d4, %f4, -, H4⟩, ⟨%d5, %f5, -, H5⟩, ⟨%d6, %f6, -, H6⟩, Hk⟩
    obtain rfl := h2.eq_unread hf2; obtain rfl := h3.eq_unread hf3
    sl_unfold [cc0__nn_kernel]
    sl_exec (disch := exact hc)
    sl_step
    iapply Hk
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexists _; isplitr
    swap; · iexact H6
    ipureintro; rfl

/-- A LATER TILE. The same, the column-minimum block coming in at KNOWN contents `x5` (what the tile before left) and
    going out at the found pieces written over exactly those. -/
noncomputable def runLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i)
    (x2 : Vec F S3x8x256 .f32) (x3 : Vec F S3x8x4096 .f32) (x5 : Vec F S8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) M2 fullShare x2 ∗ owns (c : Thread nD τ) M3 fullShare x3
            ∗ (∃ d, owns (c : Thread nD τ) M4 fullShare d) ∗ owns (c : Thread nD τ) M5 fullShare x5 ∗ (∃ d, owns (c : Thread nD τ) M6 fullShare d)
            ∗ (iprop(owns (c : Thread nD τ) M2 fullShare x2 ∗ owns (c : Thread nD τ) M3 fullShare x3
                ∗ (∃ f, M4.view.loc (c : Thread nD τ) ↦[M4.view.set]{fullShare} M4.view.writes (Elt F) f L4)
                ∗ (M5.view.loc (c : Thread nD τ) ↦[M5.view.set]{fullShare} M5.view.writes (Elt F) (h5.unread x5) L5)
                ∗ (∃ d, owns (c : Thread nD τ) M6 fullShare d)) -∗ K ⟨⟩))
          ⊢ wp frame (wpE (defs₀ (F := F)) 𝒱₀ c none) E (cc0__nn_kernel i M2 h2 M3 h3 M4 h4 M5 h5 M6 h6) K } := by
  refine ⟨?_, ?_, fun E K => ?run⟩
  case run =>
    unfold owns
    iintro ⟨⟨%f2, %hf2, H2⟩, ⟨%f3, %hf3, H3⟩, ⟨%d4, %f4, -, H4⟩, ⟨%f5, %hf5, H5⟩, ⟨%d6, %f6, -, H6⟩, Hk⟩
    obtain rfl := h2.eq_unread hf2; obtain rfl := h3.eq_unread hf3; obtain rfl := h5.eq_unread hf5
    sl_unfold [cc0__nn_kernel]
    sl_exec (disch := exact hc)
    sl_step
    iapply Hk
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexact H5
    iexists _; iexists _; isplitr
    swap; · iexact H6
    ipureintro; rfl

/-! ## What the two output blocks hold afterwards, as values -/

/-- The row-minimum block after the first tile's body: its pieces read back. -/
def rowFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) : Vec F S8x256 .f32 :=
  M4.view.read (Elt F) (M4.view.writes (Elt F) M4.view.junk (runFirst c i M2 h2 M3 h3 M4 h4 M5 h5 M6 h6 hc x2 x3).1)
/-- The column-minimum block after the first tile's body: its pieces read back. -/
def colFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) : Vec F S8x4096 .f32 :=
  M5.view.read (Elt F) (M5.view.writes (Elt F) M5.view.junk (runFirst c i M2 h2 M3 h3 M4 h4 M5 h5 M6 h6 hc x2 x3).2.1)
/-- The row-minimum block after a later tile's body. -/
def rowLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) : Vec F S8x256 .f32 :=
  M4.view.read (Elt F) (M4.view.writes (Elt F) M4.view.junk (runLater c i M2 h2 M3 h3 M4 h4 M5 h5 M6 h6 hc x2 x3 x5).1)
/-- The column-minimum block after a later tile's body: its pieces over what the tile before left. -/
def colLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) : Vec F S8x4096 .f32 :=
  M5.view.read (Elt F) (M5.view.writes (Elt F) (h5.unread x5) (runLater c i M2 h2 M3 h3 M4 h4 M5 h5 M6 h6 hc x2 x3 x5).2.1)

/-- The row-minimum block is stored whole, once, at the body's end: its one piece covers it. -/
theorem coverRowFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) (y : S8x256.Idx) :
    ∃ pc ∈ (runFirst c i M2 h2 M3 h3 M4 h4 M5 h5 M6 h6 hc x2 x3).1, y ∈ pc.1.set :=
  View.cover_of_tiledL (runFirst c i M2 h2 M3 h3 M4 h4 M5 h5 M6 h6 hc x2 x3).1 S8x256.size (by sl_kernel_rfl) y
theorem coverRowLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) (y : S8x256.Idx) :
    ∃ pc ∈ (runLater c i M2 h2 M3 h3 M4 h4 M5 h5 M6 h6 hc x2 x3 x5).1, y ∈ pc.1.set :=
  View.cover_of_tiledL (runLater c i M2 h2 M3 h3 M4 h4 M5 h5 M6 h6 hc x2 x3 x5).1 S8x256.size (by sl_kernel_rfl) y
/-- At the first tile the column-minimum block is first stored whole (the +∞ reset); the loop's pieces come on top of
    that, so the list covers the block whatever the loop wrote. -/
theorem coverColFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) (y : S8x4096.Idx) :
    ∃ pc ∈ (runFirst c i M2 h2 M3 h3 M4 h4 M5 h5 M6 h6 hc x2 x3).2.1, y ∈ pc.1.set :=
  View.cover_of_wholeMem (runFirst c i M2 h2 M3 h3 M4 h4 M5 h5 M6 h6 hc x2 x3).2.1 (by sl_whole_mem) y

end Cert.Kernel.Body

end
-- ==== Proof.K.Point.lean ====
/-
  The pairwise-distance region point by point, and its frame.

  The grid is 2 batch groups × 16 row tiles, visited in that order: point `t` is tile `t mod 16` of group `t / 16`.
  The row-minimum block of a point is written back at every point. The column-minimum block of a batch group is ONE
  block for all sixteen of its tiles: it is rebuilt from +∞ at the group's first tile, folded into at the fifteen later
  ones, and written back only after the sixteenth — so what it holds after a later tile is a function of what the tile
  before left, and the contents after each point are defined by recursion on the point. The row accumulator is scratch:
  reset before it is read at every point, so the region's invariant need not say what it holds.
-/
import proofs.«140327_j80092550135919_1_alg».proof.Proof.Gen.Kernel.Frame
import proofs.«140327_j80092550135919_1_alg».proof.Proof.Gen.Kernel.Points
import proofs.«140327_j80092550135919_1_alg».proof.Proof.Gen.Kernel.Launch
import proofs.«140327_j80092550135919_1_alg».proof.Proof.K.Run
import Idealize.ShloMosaic.Lib.Tactic
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks' staging memrefs at a point -/

abbrev ms0 (t : Fin cfg0.N) : Memref sig .tc .vmem S3x8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
/-- The row accumulator. -/
abbrev msS : Memref sig .tc .vmem S8x256 .f32 := Memref.whole cc0_scratch0
abbrev hsS : (msS).IsWhole := Memref.isWhole_whole _

/-- The body's first-tile test holds exactly at the points that are a multiple of sixteen. -/
theorem first_iff : ∀ t : Fin cfg0.N, firstTile (grid0.coords t) ↔ t.val % 16 = 0 :=
  (by decide +kernel : ∀ t : Fin grid0.N, firstTile (grid0.coords t) ↔ t.val % 16 = 0)

/-- The prediction block and the target block of a point, read off the transposed argument arrays. -/
abbrev pblk (c : Dev nD) (t : Fin cfg0.N) : Vec F S3x8x256 .f32 := iblk m c 0 t
abbrev tblk (c : Dev nD) (t : Fin cfg0.N) : Vec F S3x8x4096 .f32 := iblk m c 1 t

/-! ## What the two output blocks hold after each point -/

/-- (row-minimum block, column-minimum block) after the body at position `n`: the first tile's values where `n` is a
    multiple of sixteen, else a later tile's, the column-minimum block coming in at what position `n - 1` left. -/
def outsAt (c : Dev nD) : (n : ℕ) → n < cfg0.N → Vec F S8x256 .f32 × Vec F S8x4096 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) msS hsS ((first_iff ⟨0, hn⟩).mpr (Nat.zero_mod _)) (pblk m c ⟨0, hn⟩) (tblk m c ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) msS hsS ((first_iff ⟨0, hn⟩).mpr (Nat.zero_mod _)) (pblk m c ⟨0, hn⟩) (tblk m c ⟨0, hn⟩))
  | n + 1, hn =>
    if h0 : (n + 1) % 16 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS ((first_iff ⟨n + 1, hn⟩).mpr h0) (pblk m c ⟨n + 1, hn⟩) (tblk m c ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS ((first_iff ⟨n + 1, hn⟩).mpr h0) (pblk m c ⟨n + 1, hn⟩) (tblk m c ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS (fun h => h0 ((first_iff ⟨n + 1, hn⟩).mp h)) (pblk m c ⟨n + 1, hn⟩) (tblk m c ⟨n + 1, hn⟩) (outsAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS (fun h => h0 ((first_iff ⟨n + 1, hn⟩).mp h)) (pblk m c ⟨n + 1, hn⟩) (tblk m c ⟨n + 1, hn⟩) (outsAt c n (Nat.lt_of_succ_lt hn)).2)

theorem outsAt_first (c : Dev nD) (t : Fin cfg0.N) (h0 : t.val % 16 = 0) :
    outsAt m c t.val t.isLt =
      (rowFirst c (grid0.coords t) (ms0 t) (hs0 t) (ms1 t) (hs1 t) (ms2 t) (hs2 t) (ms3 t) (hs3 t) msS hsS ((first_iff t).mpr h0) (pblk m c t) (tblk m c t),
       colFirst c (grid0.coords t) (ms0 t) (hs0 t) (ms1 t) (hs1 t) (ms2 t) (hs2 t) (ms3 t) (hs3 t) msS hsS ((first_iff t).mpr h0) (pblk m c t) (tblk m c t)) := by
  obtain ⟨n, hn⟩ := t
  cases n with
  | zero => exact rfl
  | succ n => exact (dif_pos h0).trans rfl

theorem outsAt_later (c : Dev nD) (t : Fin cfg0.N) (h0 : ¬t.val % 16 = 0) :
    outsAt m c t.val t.isLt =
      (rowLater c (grid0.coords t) (ms0 t) (hs0 t) (ms1 t) (hs1 t) (ms2 t) (hs2 t) (ms3 t) (hs3 t) msS hsS (fun h => h0 ((first_iff t).mp h)) (pblk m c t) (tblk m c t) (outsAt m c (t.val - 1) (Nat.lt_of_le_of_lt (Nat.sub_le _ _) t.isLt)).2,
       colLater c (grid0.coords t) (ms0 t) (hs0 t) (ms1 t) (hs1 t) (ms2 t) (hs2 t) (ms3 t) (hs3 t) msS hsS (fun h => h0 ((first_iff t).mp h)) (pblk m c t) (tblk m c t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at a point each input block as it was and the two output blocks
    at `outsAt`; the invariant is the row accumulator at anything (and the generator register); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's staging buffer holds its block when the body runs, fetched at that point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile the column-minimum block's staging buffer holds what the tile before left: it was not written back
    in between (that happens only after a group's sixteenth tile). -/
theorem before3_later (c : Dev nD) (t : Fin cfg0.N) (h0 : ¬t.val % 16 = 0) (d) :
    (dats m 0 c).before 3 t d = (outsAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-- The region's invariant, with the row accumulator as a memref owned at some contents. -/
theorem PhiA_eq (c : Dev nD) :
    (Pipeline.ΦA spec0 c : sProp 𝕄)
      = iprop(iprop((∃ d, owns (c : Thread nD τ) msS fullShare d)) ∗ (∃ r, prngReg c r)) := by
  unfold Pipeline.ΦA; rw [scopedRest0_eq]; simp only [msS, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the point is a first tile or a later one; at a later
    one the column-minimum block comes in at what the tile before left; the run of that case applies; the row
    accumulator is taken out of the invariant at anything and handed back at anything; nothing is owed. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3,
    show (dats m 0 c).Φ t.castSucc = Pipeline.ΦA spec0 c from rfl, PhiA_eq]
  by_cases h0 : t.val % 16 = 0
  · rw [outsAt_first m c t h0]
    dsimp only
    unfold rowFirst colFirst
    iintro ⟨⟨HS, Hg⟩, Ho, ⟨%d0, H0⟩, ⟨%d1, H1⟩, ⟨%d2, H2⟩, ⟨%d3, H3⟩⟩
    iapply ((runFirst c (grid0.coords t) _ _ _ _ _ _ _ _ _ _ ((first_iff t).mpr h0) (pblk m c t) (tblk m c t)).2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverRowFirst c _ _ _ _ _ _ _ _ _ _ _ _ _ _)
    unfold owns; iexists _; isplitr
    swap; · iexact H3
    ipureintro; exact View.read_writes_of_cover _ _ _ _ _ (coverColFirst c _ _ _ _ _ _ _ _ _ _ _ _ _ _)
  · rw [outsAt_later m c t h0]
    dsimp only
    simp only [before3_later m c t h0]
    unfold rowLater colLater
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun h => h0 ((first_iff t).mp h)) (pblk m c t) (tblk m c t) _).2.2 Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverRowLater c _ _ _ _ _ _ _ _ _ _ _ _ _ _ _)
    unfold owns; iexists _; isplitr
    swap; · iexact H3
    ipureintro; rfl

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters every weakly fair execution of the program terminates, and every final state has
    the two output arrays at what the proof data computes, the reduction lines after the region applied to them, and
    every other unscoped buffer as those lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The program runs to the end, nothing faults, and the two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Loop.lean ====
/-
  The counted loop of the pairwise-distance body, by its invariant, with the target block held WHOLE.

  One trip (column chunk `k` of the 4096 target points, 256 of them) reads the three coordinate planes of the target
  block at columns `256 k … 256 k + 255` — three slabs of ONE staged block —, folds the chunk's column minima into the
  same columns of the column-minimum block and the chunk's row minima into the row accumulator. The invariant before trip
  `k`: the target block as it was handed over, and the two written blocks at the pieces of the trips before `k` laid
  over what they held when the loop was entered. Each trip's pieces are functions of what the trip finds in the two
  blocks, because it loads back what it is about to overwrite.
-/
import proofs.«140327_j80092550135919_1_alg».proof.Proof.Gen.KernelIdeal.Skeleton
import proofs.«140327_j80092550135919_1_alg».proof.Proof.Gen.KernelIdeal.Loops
import Idealize.ShloMosaic.Lib.Exec
import Idealize.ShloMosaic.Lib.Tactic
import Idealize.ShloMosaic.Lib.Pipeline.Kit

set_option maxRecDepth 8192
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S3x8x256 .f32) (harg2 : arg2.IsWhole) (arg3 : Memref sig .tc .vmem S3x8x4096 .f32) (harg3 : arg3.IsWhole)
  (arg4 : Memref sig .tc .vmem S8x256 .f32) (harg4 : arg4.IsWhole) (arg5 : Memref sig .tc .vmem S8x4096 .f32) (harg5 : arg5.IsWhole)
  (arg6 : Memref sig .tc .vmem S8x256 .f32) (harg6 : arg6.IsWhole)
  (v7 : Vec F S1x8x256 .f32) (v9 : Vec F S1x8x256 .f32) (v11 : Vec F S1x8x256 .f32)
  (X3 : BufTy.Contents (Elt F) arg3.view.ty)
  (G5 : BufTy.Contents (Elt F) arg5.view.ty) (G6 : BufTy.Contents (Elt F) arg6.view.ty)

/-- One trip's resources: the target block at its contents, the two written blocks at any. -/
abbrev TripW (f5 : BufTy.Contents (Elt F) arg5.view.ty) (f6 : BufTy.Contents (Elt F) arg6.view.ty) : sProp 𝕄G :=
  iprop((arg3.view.loc (c : Thread nD τ) ↦[arg3.view.set]{fullShare} X3) ∗ (arg5.view.loc (c : Thread nD τ) ↦[arg5.view.set]{fullShare} f5) ∗ (arg6.view.loc (c : Thread nD τ) ↦[arg6.view.set]{fullShare} f6))

/-- ONE TRIP at a symbolic `k`: from the trip's resources to the same with the trip's pieces written — the pieces
    (one store into the column-minimum block at the chunk's columns, one into the whole row accumulator) are what the
    run finds, as functions of the contents the trip meets in the two blocks. -/
@[irreducible] def tripW (k : Fin k0_t1_loop.trips) :
    Σ' (L5 : (BufTy.Contents (Elt F) arg5.view.ty → BufTy.Contents (Elt F) arg6.view.ty → List (View.Piece (Elt F) S8x4096 .f32))),
      { L6 : (BufTy.Contents (Elt F) arg5.view.ty → BufTy.Contents (Elt F) arg6.view.ty → List (View.Piece (Elt F) S8x256 .f32)) //
        ∀ (E : Set ℕ) (f5 : BufTy.Contents (Elt F) arg5.view.ty) (f6 : BufTy.Contents (Elt F) arg6.view.ty),
          TripW (F := F) c arg3 arg5 arg6 X3 f5 f6
          ⊢ wp frame (wpE (defs₀ (F := F)) 𝒱 (c : Thread nD τ) bd) E (k0_t1_body (F := F) i arg2 harg2 arg3 harg3 arg4 harg4 arg5 harg5 arg6 harg6 v7 v9 v11 k PUnit.unit)
              (fun _ => TripW (F := F) c arg3 arg5 arg6 X3 (arg5.view.writes (Elt F) f5 (L5 f5 f6)) (arg6.view.writes (Elt F) f6 (L6 f5 f6))) } := by
  have hk : k.val < 16 := Nat.lt_of_lt_of_le k.isLt k0_t1_abs.2.1
  refine ⟨?_, ?_, fun E f5 f6 => ?run⟩
  case run =>
    unfold k0_t1_body
    iintro ⟨HR_arg3, HW_arg5, HW_arg6⟩
    sl_exec
    sl_step
    sl_close

/-- The trip's two piece lists, at the contents the trip finds. -/
abbrev tripLW (k : Fin k0_t1_loop.trips) (f5 : BufTy.Contents (Elt F) arg5.view.ty) (f6 : BufTy.Contents (Elt F) arg6.view.ty) :
    List (View.Piece (Elt F) S8x4096 .f32) × List (View.Piece (Elt F) S8x256 .f32) :=
  ((tripW (F := F) 𝒱 c bd i arg2 harg2 arg3 harg3 arg4 harg4 arg5 harg5 arg6 harg6 v7 v9 v11 X3 k).1 f5 f6,
   (tripW (F := F) 𝒱 c bd i arg2 harg2 arg3 harg3 arg4 harg4 arg5 harg5 arg6 harg6 v7 v9 v11 X3 k).2.1 f5 f6)

/-- Trip `k`'s pieces in front of the earlier ones, taken at the contents the earlier trips left; past the last trip nothing. -/
@[irreducible] def pbStepW (k : ℕ) (prev : List (View.Piece (Elt F) S8x4096 .f32) × List (View.Piece (Elt F) S8x256 .f32)) :
    List (View.Piece (Elt F) S8x4096 .f32) × List (View.Piece (Elt F) S8x256 .f32) :=
  if h : k < k0_t1_loop.trips then
    ((tripLW (F := F) 𝒱 c bd i arg2 harg2 arg3 harg3 arg4 harg4 arg5 harg5 arg6 harg6 v7 v9 v11 X3 ⟨k, h⟩ (arg5.view.writes (Elt F) G5 prev.1) (arg6.view.writes (Elt F) G6 prev.2)).1 ++ prev.1,
     (tripLW (F := F) 𝒱 c bd i arg2 harg2 arg3 harg3 arg4 harg4 arg5 harg5 arg6 harg6 v7 v9 v11 X3 ⟨k, h⟩ (arg5.view.writes (Elt F) G5 prev.1) (arg6.view.writes (Elt F) G6 prev.2)).2 ++ prev.2)
  else prev

/-- The pieces of the trips before `k` (last first), over the contents `G5`, `G6` at loop entry. -/
def pbW : ℕ → List (View.Piece (Elt F) S8x4096 .f32) × List (View.Piece (Elt F) S8x256 .f32)
  | 0 => ([], [])
  | k + 1 => pbStepW (F := F) 𝒱 c bd i arg2 harg2 arg3 harg3 arg4 harg4 arg5 harg5 arg6 harg6 v7 v9 v11 X3 G5 G6 k
      (pbW k)

theorem pbW_succ (k : Fin k0_t1_loop.trips) :
    pbW (F := F) 𝒱 c bd i arg2 harg2 arg3 harg3 arg4 harg4 arg5 harg5 arg6 harg6 v7 v9 v11 X3 G5 G6 (k.val + 1)
      = ((tripLW (F := F) 𝒱 c bd i arg2 harg2 arg3 harg3 arg4 harg4 arg5 harg5 arg6 harg6 v7 v9 v11 X3 k
            (arg5.view.writes (Elt F) G5 (pbW (F := F) 𝒱 c bd i arg2 harg2 arg3 harg3 arg4 harg4 arg5 harg5 arg6 harg6 v7 v9 v11 X3 G5 G6 k.val).1)
            (arg6.view.writes (Elt F) G6 (pbW (F := F) 𝒱 c bd i arg2 harg2 arg3 harg3 arg4 harg4 arg5 harg5 arg6 harg6 v7 v9 v11 X3 G5 G6 k.val).2)).1
          ++ (pbW (F := F) 𝒱 c bd i arg2 harg2 arg3 harg3 arg4 harg4 arg5 harg5 arg6 harg6 v7 v9 v11 X3 G5 G6 k.val).1,
         (tripLW (F := F) 𝒱 c bd i arg2 harg2 arg3 harg3 arg4 harg4 arg5 harg5 arg6 harg6 v7 v9 v11 X3 k
            (arg5.view.writes (Elt F) G5 (pbW (F := F) 𝒱 c bd i arg2 harg2 arg3 harg3 arg4 harg4 arg5 harg5 arg6 harg6 v7 v9 v11 X3 G5 G6 k.val).1)
            (arg6.view.writes (Elt F) G6 (pbW (F := F) 𝒱 c bd i arg2 harg2 arg3 harg3 arg4 harg4 arg5 harg5 arg6 harg6 v7 v9 v11 X3 G5 G6 k.val).2)).2
          ++ (pbW (F := F) 𝒱 c bd i arg2 harg2 arg3 harg3 arg4 harg4 arg5 harg5 arg6 harg6 v7 v9 v11 X3 G5 G6 k.val).2) := by
  rw [pbW.eq_2]; unfold pbStepW; exact dif_pos k.isLt

/-- THE INVARIANT before trip `k`: the target block at `X3`; each written block at the pieces of the trips before `k`
    over its contents at loop entry. -/
abbrev invW (k : ℕ) (_u : PUnit) : sProp 𝕄G :=
  iprop((arg3.view.loc (c : Thread nD τ) ↦[arg3.view.set]{fullShare} X3)
    ∗ (∃ f, (arg5.view.loc (c : Thread nD τ) ↦[arg5.view.set]{fullShare} f) ∗ ⌜f = arg5.view.writes (Elt F) G5 (pbW (F := F) 𝒱 c bd i arg2 harg2 arg3 harg3 arg4 harg4 arg5 harg5 arg6 harg6 v7 v9 v11 X3 G5 G6 k).1⌝)
    ∗ (∃ f, (arg6.view.loc (c : Thread nD τ) ↦[arg6.view.set]{fullShare} f) ∗ ⌜f = arg6.view.writes (Elt F) G6 (pbW (F := F) 𝒱 c bd i arg2 harg2 arg3 harg3 arg4 harg4 arg5 harg5 arg6 harg6 v7 v9 v11 X3 G5 G6 k).2⌝))

set_option warn.classDefReducibility false in
/-- The loop by that invariant: a trip's pieces go in front of the earlier ones. -/
@[sl_loop] def loopInvW :
    LoopInvTy_k0_t1 (F := F) Unit ℕ (UR sig nD τ) ℕ 𝒱 c bd E i arg2 harg2 arg3 harg3 arg4 harg4 arg5 harg5 arg6 harg6 v7 v9 v11 where
  inv := invW (F := F) 𝒱 c bd i arg2 harg2 arg3 harg3 arg4 harg4 arg5 harg5 arg6 harg6 v7 v9 v11 X3 G5 G6
  step k acc := by
    iintro ⟨HR_arg3, ⟨%f5, HW_arg5, %h5⟩, ⟨%f6, HW_arg6, %h6⟩⟩
    iapply (wp_wand_r Idealize.ShloMosaic.frame (wpE (defs₀ (F := F)) 𝒱 (c : Thread nD τ) bd) E)
    isplitl [HR_arg3 HW_arg5 HW_arg6]
    · iapply ((tripW (F := F) 𝒱 c bd i arg2 harg2 arg3 harg3 arg4 harg4 arg5 harg5 arg6 harg6 v7 v9 v11 X3 k).2.2 E f5 f6)
      isplitl [HR_arg3]; · iexact HR_arg3
      isplitl [HW_arg5]; · iexact HW_arg5
      iexact HW_arg6
    · iintro %_ ⟨HR_arg3, HW_arg5, HW_arg6⟩
      isplitl [HR_arg3]; · iexact HR_arg3
      rw [pbW_succ]
      isplitl [HW_arg5]
      · iexists _; isplitl [HW_arg5]; · iexact HW_arg5
        ipureintro; rw [h5, h6, ← View.writes_append]
      iexists _; isplitl [HW_arg6]; · iexact HW_arg6
      ipureintro; rw [h5, h6, ← View.writes_append]

end Cert.KernelIdeal.Body

end
-- ==== Proof.KI.Run.lean ====
/-
  The pairwise-distance body run once per control case.

  At a grid point (batch group, row tile) the body resets the column-minimum block to +∞ only at the group's FIRST row
  tile, resets the row accumulator to +∞ always, folds sixteen column chunks into both (the loop), and copies the row
  accumulator out. So there are two cases: the first tile, where the column-minimum block is rebuilt from +∞, and a later
  tile, where it is folded into what the tile before left. In both, what each written block ends with is a list of
  pieces the run finds; read back over arbitrary prior contents it is a function of the point's input blocks alone
  (and, at a later tile, of the column-minimum block as found), because the pieces cover the block or the prior contents
  are the known ones.
-/
import proofs.«140327_j80092550135919_1_alg».proof.Proof.Gen.KernelIdeal.Frame
import proofs.«140327_j80092550135919_1_alg».proof.Proof.Gen.KernelIdeal.Skeleton
import proofs.«140327_j80092550135919_1_alg».proof.Proof.KI.Loop
import Idealize.ShloMosaic.Lib.Tactic
import Idealize.ShloMosaic.Lib.Ring

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The body's test "this is the first row tile of its batch group", as it is computed from the grid coordinates. -/
abbrev firstTile (i : grid0.Coords) : Prop :=
  Scalar.cmpi .ne (Scalar.extui (Scalar.cmpi .eq (BitVec.ofNat 32 (i 1).val) 0#32)) 0#32 = 1#1

/-- THE FIRST TILE. From the two input blocks, and the three written blocks at anything, the body ends with the input
    blocks as they were, the row-minimum block and the column-minimum block each at a list of pieces the run finds
    written over what they held, and the row accumulator at something. -/
noncomputable def runFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i)
    (x2 : Vec F S3x8x256 .f32) (x3 : Vec F S3x8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) M2 fullShare x2 ∗ owns (c : Thread nD τ) M3 fullShare x3
            ∗ (∃ d, owns (c : Thread nD τ) M4 fullShare d) ∗ (∃ d, owns (c : Thread nD τ) M5 fullShare d) ∗ (∃ d, owns (c : Thread nD τ) M6 fullShare d)
            ∗ (iprop(owns (c : Thread nD τ) M2 fullShare x2 ∗ owns (c : Thread nD τ) M3 fullShare x3
                ∗ (∃ f, M4.view.loc (c : Thread nD τ) ↦[M4.view.set]{fullShare} M4.view.writes (Elt F) f L4)
                ∗ (∃ f, M5.view.loc (c : Thread nD τ) ↦[M5.view.set]{fullShare} M5.view.writes (Elt F) f L5)
                ∗ (∃ d, owns (c : Thread nD τ) M6 fullShare d)) -∗ K ⟨⟩))
          ⊢ wp frame (wpE (defs₀ (F := F)) 𝒱₀ c none) E (cc0__nn_kernel i M2 h2 M3 h3 M4 h4 M5 h5 M6 h6) K } := by
  refine ⟨?_, ?_, fun E K => ?run⟩
  case run =>
    unfold owns
    iintro ⟨⟨%f2, %hf2, H2⟩, ⟨%f3, %hf3, H3⟩, ⟨%d4, %f4, -, H4⟩, ⟨%d5, %f5, -, H5⟩, ⟨%d6, %f6, -, H6⟩, Hk⟩
    obtain rfl := h2.eq_unread hf2; obtain rfl := h3.eq_unread hf3
    sl_unfold [cc0__nn_kernel]
    sl_exec (disch := exact hc)
    sl_step
    iapply Hk
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexists _; isplitr
    swap; · iexact H6
    ipureintro; rfl

/-- A LATER TILE. The same, the column-minimum block coming in at KNOWN contents `x5` (what the tile before left) and
    going out at the found pieces written over exactly those. -/
noncomputable def runLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i)
    (x2 : Vec F S3x8x256 .f32) (x3 : Vec F S3x8x4096 .f32) (x5 : Vec F S8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) M2 fullShare x2 ∗ owns (c : Thread nD τ) M3 fullShare x3
            ∗ (∃ d, owns (c : Thread nD τ) M4 fullShare d) ∗ owns (c : Thread nD τ) M5 fullShare x5 ∗ (∃ d, owns (c : Thread nD τ) M6 fullShare d)
            ∗ (iprop(owns (c : Thread nD τ) M2 fullShare x2 ∗ owns (c : Thread nD τ) M3 fullShare x3
                ∗ (∃ f, M4.view.loc (c : Thread nD τ) ↦[M4.view.set]{fullShare} M4.view.writes (Elt F) f L4)
                ∗ (M5.view.loc (c : Thread nD τ) ↦[M5.view.set]{fullShare} M5.view.writes (Elt F) (h5.unread x5) L5)
                ∗ (∃ d, owns (c : Thread nD τ) M6 fullShare d)) -∗ K ⟨⟩))
          ⊢ wp frame (wpE (defs₀ (F := F)) 𝒱₀ c none) E (cc0__nn_kernel i M2 h2 M3 h3 M4 h4 M5 h5 M6 h6) K } := by
  refine ⟨?_, ?_, fun E K => ?run⟩
  case run =>
    unfold owns
    iintro ⟨⟨%f2, %hf2, H2⟩, ⟨%f3, %hf3, H3⟩, ⟨%d4, %f4, -, H4⟩, ⟨%f5, %hf5, H5⟩, ⟨%d6, %f6, -, H6⟩, Hk⟩
    obtain rfl := h2.eq_unread hf2; obtain rfl := h3.eq_unread hf3; obtain rfl := h5.eq_unread hf5
    sl_unfold [cc0__nn_kernel]
    sl_exec (disch := exact hc)
    sl_step
    iapply Hk
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexact H5
    iexists _; iexists _; isplitr
    swap; · iexact H6
    ipureintro; rfl

/-! ## What the two output blocks hold afterwards, as values -/

/-- The row-minimum block after the first tile's body: its pieces read back. -/
def rowFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) : Vec F S8x256 .f32 :=
  M4.view.read (Elt F) (M4.view.writes (Elt F) M4.view.junk (runFirst c i M2 h2 M3 h3 M4 h4 M5 h5 M6 h6 hc x2 x3).1)
/-- The column-minimum block after the first tile's body: its pieces read back. -/
def colFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) : Vec F S8x4096 .f32 :=
  M5.view.read (Elt F) (M5.view.writes (Elt F) M5.view.junk (runFirst c i M2 h2 M3 h3 M4 h4 M5 h5 M6 h6 hc x2 x3).2.1)
/-- The row-minimum block after a later tile's body. -/
def rowLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) : Vec F S8x256 .f32 :=
  M4.view.read (Elt F) (M4.view.writes (Elt F) M4.view.junk (runLater c i M2 h2 M3 h3 M4 h4 M5 h5 M6 h6 hc x2 x3 x5).1)
/-- The column-minimum block after a later tile's body: its pieces over what the tile before left. -/
def colLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) : Vec F S8x4096 .f32 :=
  M5.view.read (Elt F) (M5.view.writes (Elt F) (h5.unread x5) (runLater c i M2 h2 M3 h3 M4 h4 M5 h5 M6 h6 hc x2 x3 x5).2.1)

/-- The row-minimum block is stored whole, once, at the body's end: its one piece covers it. -/
theorem coverRowFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) (y : S8x256.Idx) :
    ∃ pc ∈ (runFirst c i M2 h2 M3 h3 M4 h4 M5 h5 M6 h6 hc x2 x3).1, y ∈ pc.1.set :=
  View.cover_of_tiledL (runFirst c i M2 h2 M3 h3 M4 h4 M5 h5 M6 h6 hc x2 x3).1 S8x256.size (by sl_kernel_rfl) y
theorem coverRowLater (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i) (x2 : Vec F S3x8x256 .f32) (x3 : Vec F S3x8x4096 .f32) (x5 : Vec F S8x4096 .f32) (y : S8x256.Idx) :
    ∃ pc ∈ (runLater c i M2 h2 M3 h3 M4 h4 M5 h5 M6 h6 hc x2 x3 x5).1, y ∈ pc.1.set :=
  View.cover_of_tiledL (runLater c i M2 h2 M3 h3 M4 h4 M5 h5 M6 h6 hc x2 x3 x5).1 S8x256.size (by sl_kernel_rfl) y
/-- At the first tile the column-minimum block is first stored whole (the +∞ reset); the loop's pieces come on top of
    that, so the list covers the block whatever the loop wrote. -/
theorem coverColFirst (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i) (x2 : Vec F S3x8x256 .f32) (x3 : Vec F S3x8x4096 .f32) (y : S8x4096.Idx) :
    ∃ pc ∈ (runFirst c i M2 h2 M3 h3 M4 h4 M5 h5 M6 h6 hc x2 x3).2.1, y ∈ pc.1.set :=
  View.cover_of_wholeMem (runFirst c i M2 h2 M3 h3 M4 h4 M5 h5 M6 h6 hc x2 x3).2.1 (by sl_whole_mem) y

end Cert.KernelIdeal.Body

end
-- ==== Proof.KI.Point.lean ====
/-
  The pairwise-distance region point by point, and its frame.

  The grid is 2 batch groups × 16 row tiles, visited in that order: point `t` is tile `t mod 16` of group `t / 16`.
  The row-minimum block of a point is written back at every point. The column-minimum block of a batch group is ONE
  block for all sixteen of its tiles: it is rebuilt from +∞ at the group's first tile, folded into at the fifteen later
  ones, and written back only after the sixteenth — so what it holds after a later tile is a function of what the tile
  before left, and the contents after each point are defined by recursion on the point. The row accumulator is scratch:
  reset before it is read at every point, so the region's invariant need not say what it holds.
-/
import proofs.«140327_j80092550135919_1_alg».proof.Proof.Gen.KernelIdeal.Frame
import proofs.«140327_j80092550135919_1_alg».proof.Proof.Gen.KernelIdeal.Points
import proofs.«140327_j80092550135919_1_alg».proof.Proof.Gen.KernelIdeal.Launch
import proofs.«140327_j80092550135919_1_alg».proof.Proof.KI.Run
import Idealize.ShloMosaic.Lib.Tactic
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks' staging memrefs at a point -/

abbrev ms0 (t : Fin cfg0.N) : Memref sig .tc .vmem S3x8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
/-- The row accumulator. -/
abbrev msS : Memref sig .tc .vmem S8x256 .f32 := Memref.whole cc0_scratch0
abbrev hsS : (msS).IsWhole := Memref.isWhole_whole _

/-- The body's first-tile test holds exactly at the points that are a multiple of sixteen. -/
theorem first_iff : ∀ t : Fin cfg0.N, firstTile (grid0.coords t) ↔ t.val % 16 = 0 :=
  (by decide +kernel : ∀ t : Fin grid0.N, firstTile (grid0.coords t) ↔ t.val % 16 = 0)

/-- The prediction block and the target block of a point, read off the transposed argument arrays. -/
abbrev pblk (c : Dev nD) (t : Fin cfg0.N) : Vec F S3x8x256 .f32 := iblk m c 0 t
abbrev tblk (c : Dev nD) (t : Fin cfg0.N) : Vec F S3x8x4096 .f32 := iblk m c 1 t

/-! ## What the two output blocks hold after each point -/

/-- (row-minimum block, column-minimum block) after the body at position `n`: the first tile's values where `n` is a
    multiple of sixteen, else a later tile's, the column-minimum block coming in at what position `n - 1` left. -/
def outsAt (c : Dev nD) : (n : ℕ) → n < cfg0.N → Vec F S8x256 .f32 × Vec F S8x4096 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) msS hsS ((first_iff ⟨0, hn⟩).mpr (Nat.zero_mod _)) (pblk m c ⟨0, hn⟩) (tblk m c ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) msS hsS ((first_iff ⟨0, hn⟩).mpr (Nat.zero_mod _)) (pblk m c ⟨0, hn⟩) (tblk m c ⟨0, hn⟩))
  | n + 1, hn =>
    if h0 : (n + 1) % 16 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS ((first_iff ⟨n + 1, hn⟩).mpr h0) (pblk m c ⟨n + 1, hn⟩) (tblk m c ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS ((first_iff ⟨n + 1, hn⟩).mpr h0) (pblk m c ⟨n + 1, hn⟩) (tblk m c ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS (fun h => h0 ((first_iff ⟨n + 1, hn⟩).mp h)) (pblk m c ⟨n + 1, hn⟩) (tblk m c ⟨n + 1, hn⟩) (outsAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) msS hsS (fun h => h0 ((first_iff ⟨n + 1, hn⟩).mp h)) (pblk m c ⟨n + 1, hn⟩) (tblk m c ⟨n + 1, hn⟩) (outsAt c n (Nat.lt_of_succ_lt hn)).2)

theorem outsAt_first (c : Dev nD) (t : Fin cfg0.N) (h0 : t.val % 16 = 0) :
    outsAt m c t.val t.isLt =
      (rowFirst c (grid0.coords t) (ms0 t) (hs0 t) (ms1 t) (hs1 t) (ms2 t) (hs2 t) (ms3 t) (hs3 t) msS hsS ((first_iff t).mpr h0) (pblk m c t) (tblk m c t),
       colFirst c (grid0.coords t) (ms0 t) (hs0 t) (ms1 t) (hs1 t) (ms2 t) (hs2 t) (ms3 t) (hs3 t) msS hsS ((first_iff t).mpr h0) (pblk m c t) (tblk m c t)) := by
  obtain ⟨n, hn⟩ := t
  cases n with
  | zero => exact rfl
  | succ n => exact (dif_pos h0).trans rfl

theorem outsAt_later (c : Dev nD) (t : Fin cfg0.N) (h0 : ¬t.val % 16 = 0) :
    outsAt m c t.val t.isLt =
      (rowLater c (grid0.coords t) (ms0 t) (hs0 t) (ms1 t) (hs1 t) (ms2 t) (hs2 t) (ms3 t) (hs3 t) msS hsS (fun h => h0 ((first_iff t).mp h)) (pblk m c t) (tblk m c t) (outsAt m c (t.val - 1) (Nat.lt_of_le_of_lt (Nat.sub_le _ _) t.isLt)).2,
       colLater c (grid0.coords t) (ms0 t) (hs0 t) (ms1 t) (hs1 t) (ms2 t) (hs2 t) (ms3 t) (hs3 t) msS hsS (fun h => h0 ((first_iff t).mp h)) (pblk m c t) (tblk m c t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at a point each input block as it was and the two output blocks
    at `outsAt`; the invariant is the row accumulator at anything (and the generator register); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's staging buffer holds its block when the body runs, fetched at that point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile the column-minimum block's staging buffer holds what the tile before left: it was not written back
    in between (that happens only after a group's sixteenth tile). -/
theorem before3_later (c : Dev nD) (t : Fin cfg0.N) (h0 : ¬t.val % 16 = 0) (d) :
    (dats m 0 c).before 3 t d = (outsAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-- The region's invariant, with the row accumulator as a memref owned at some contents. -/
theorem PhiA_eq (c : Dev nD) :
    (Pipeline.ΦA spec0 c : sProp 𝕄)
      = iprop(iprop((∃ d, owns (c : Thread nD τ) msS fullShare d)) ∗ (∃ r, prngReg c r)) := by
  unfold Pipeline.ΦA; rw [scopedRest0_eq]; simp only [msS, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the point is a first tile or a later one; at a later
    one the column-minimum block comes in at what the tile before left; the run of that case applies; the row
    accumulator is taken out of the invariant at anything and handed back at anything; nothing is owed. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3,
    show (dats m 0 c).Φ t.castSucc = Pipeline.ΦA spec0 c from rfl, PhiA_eq]
  by_cases h0 : t.val % 16 = 0
  · rw [outsAt_first m c t h0]
    dsimp only
    unfold rowFirst colFirst
    iintro ⟨⟨HS, Hg⟩, Ho, ⟨%d0, H0⟩, ⟨%d1, H1⟩, ⟨%d2, H2⟩, ⟨%d3, H3⟩⟩
    iapply ((runFirst c (grid0.coords t) _ _ _ _ _ _ _ _ _ _ ((first_iff t).mpr h0) (pblk m c t) (tblk m c t)).2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverRowFirst c _ _ _ _ _ _ _ _ _ _ _ _ _ _)
    unfold owns; iexists _; isplitr
    swap; · iexact H3
    ipureintro; exact View.read_writes_of_cover _ _ _ _ _ (coverColFirst c _ _ _ _ _ _ _ _ _ _ _ _ _ _)
  · rw [outsAt_later m c t h0]
    dsimp only
    simp only [before3_later m c t h0]
    unfold rowLater colLater
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun h => h0 ((first_iff t).mp h)) (pblk m c t) (tblk m c t) _).2.2 Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverRowLater c _ _ _ _ _ _ _ _ _ _ _ _ _ _ _)
    unfold owns; iexists _; isplitr
    swap; · iexact H3
    ipureintro; rfl

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters every weakly fair execution of the program terminates, and every final state has
    the two output arrays at what the proof data computes, the reduction lines after the region applied to them, and
    every other unscoped buffer as those lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The program runs to the end, nothing faults, and the two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The bidirectional nearest-neighbour distance, as mathematics over the extended reals.

  For point clouds `P`, `T` (16 batches × 4096 points × 3 coordinates) the distance between point `n` of `P` and point
  `m` of `T` in batch `b` is `√(max(‖p‖² + ‖t‖² − 2·⟨p, t⟩, 0))`, the three-term sums grouped `(a + b) + c`. The
  row minimum of `(b, n)` is the least such distance over all `m`, the column minimum of `(b, m)` the least over all
  `n`; each is a fold of `min` from +∞. Both programs take these minima in pieces — 256 at a time, sixteen pieces —
  and `min` being associative, commutative and idempotent with +∞ its unit, the pieces' fold is the whole fold.
-/
import Idealize.ShloMosaic.PureOps.Ideal
import Idealize.ShloMosaic.PureOps.Ideal.Laws
import Idealize.ShloMosaic.Lib.ValueIdx
import Mathlib.Data.Finset.Fold
import Mathlib.Data.Finset.Lattice.Fold
import Mathlib.Data.EReal.Basic

noncomputable section

namespace Cert.Chamfer

open Idealize.ShloMosaic Idealize.ShloMosaic.ValueIdx

/-- The literals both programs use: 2, 0 and +∞ as f32 words. -/
abbrev two32 : EReal := Ideal.ofBits .f32 0x40000000#32
abbrev zero32 : EReal := Ideal.ofBits .f32 0x00000000#32
abbrev inf32 : EReal := Ideal.ofBits .f32 0x7F800000#32

/-- The word `0x7F800000` is +∞, the unit of `min`. -/
theorem inf32_eq_top : inf32 = (⊤ : EReal) := by
  simp [Ideal.ofBits, Ideal.ieee]

/-- The distance from the six coordinates, the sums grouped as the kernel groups them. -/
def dist6 (p0 p1 p2 t0 t1 t2 : EReal) : EReal :=
  Ideal.sqrt (max ((((p0 * p0 + p1 * p1) + p2 * p2) + ((t0 * t0 + t1 * t1) + t2 * t2)) - two32 * ((p0 * t0 + p1 * t1) + p2 * t2)) zero32)

/-- The point clouds' shape and the two results' shape. -/
abbrev Cloud : Shape := ⟨3, ![16, 4096, 3]⟩
abbrev Mins : Shape := ⟨2, ![16, 4096]⟩

/-- The distance between point `n` of `P` and point `m` of `T` in batch `b`. -/
def dist (P T : Cloud.Idx → EReal) (b : Fin 16) (n m : Fin 4096) : EReal :=
  dist6 (P (ix3 b n 0)) (P (ix3 b n 1)) (P (ix3 b n 2)) (T (ix3 b m 0)) (T (ix3 b m 1)) (T (ix3 b m 2))

/-- A fold of `min` from +∞ over 256, and over 4096, indices. -/
abbrev min256 (f : Fin 256 → EReal) : EReal := (Finset.univ : Finset (Fin 256)).fold min inf32 f
abbrev min4096 (f : Fin 4096 → EReal) : EReal := (Finset.univ : Finset (Fin 4096)).fold min inf32 f

/-- The nearest target point's distance, per prediction point; the nearest prediction point's, per target point. -/
def rowMin (P T : Cloud.Idx → EReal) (b : Fin 16) (n : Fin 4096) : EReal := min4096 fun m => dist P T b n m
def colMin (P T : Cloud.Idx → EReal) (b : Fin 16) (m : Fin 4096) : EReal := min4096 fun n => dist P T b n m

/-- The two as arrays. -/
def rowArr (P T : Cloud.Idx → EReal) : Mins.Idx → EReal := fun j => rowMin P T (j 0) (j 1)
def colArr (P T : Cloud.Idx → EReal) : Mins.Idx → EReal := fun j => colMin P T (j 0) (j 1)

theorem rowArr_apply (P T : Cloud.Idx → EReal) (b : Fin 16) (n : Fin 4096) : rowArr P T (ix2 b n) = rowMin P T b n := rfl
theorem colArr_apply (P T : Cloud.Idx → EReal) (b : Fin 16) (m : Fin 4096) : colArr P T (ix2 b m) = colMin P T b m := rfl

/-- The minimum taken 256 at a time: after `k` chunks, starting from `a`. -/
def chunkFoldFrom (a : EReal) (g : ℕ → EReal) : ℕ → EReal
  | 0 => a
  | k + 1 => min (chunkFoldFrom a g k) (min256 fun j => g (256 * k + j.val))

/-- The same from +∞. -/
abbrev chunkFold (g : ℕ → EReal) (k : ℕ) : EReal := chunkFoldFrom inf32 g k

/-- Starting from `a` is `min a` of starting from +∞. -/
theorem chunkFoldFrom_eq (a : EReal) (g : ℕ → EReal) (k : ℕ) : chunkFoldFrom a g k = min a (chunkFold g k) := by
  induction k with
  | zero =>
    show a = min a inf32
    rw [inf32_eq_top, min_top_right]
  | succ k ih =>
    show min (chunkFoldFrom a g k) _ = min a (min (chunkFoldFrom inf32 g k) _)
    rw [ih, min_assoc]

/-- A bound lies below a fold of `min` from +∞ exactly when it lies below every term. -/
private theorem le_fold_min_inf32 {ι : Type} (s : Finset ι) (f : ι → EReal) (c : EReal) :
    c ≤ s.fold min inf32 f ↔ ∀ i ∈ s, c ≤ f i := by
  rw [Finset.le_fold_min, inf32_eq_top]
  exact ⟨fun h => h.2, fun h => ⟨le_top, h⟩⟩

/-- A bound lies below the minimum after `k` chunks exactly when it lies below the first `256 * k` terms. -/
private theorem le_chunkFold (g : ℕ → EReal) (c : EReal) (k : ℕ) :
    c ≤ chunkFold g k ↔ ∀ i, i < 256 * k → c ≤ g i := by
  induction k with
  | zero =>
    show c ≤ inf32 ↔ _
    rw [inf32_eq_top]
    exact ⟨fun _ i hi => absurd hi (by omega), fun _ => le_top⟩
  | succ k ih =>
    show c ≤ min (chunkFoldFrom inf32 g k) (min256 fun j => g (256 * k + j.val)) ↔ _
    rw [le_min_iff, ih, le_fold_min_inf32]
    constructor
    · rintro ⟨h1, h2⟩ i hi
      by_cases hlt : i < 256 * k
      · exact h1 i hlt
      · have hj : i - 256 * k < 256 := by omega
        have := h2 ⟨i - 256 * k, hj⟩ (Finset.mem_univ _)
        have e : 256 * k + (i - 256 * k) = i := by omega
        simpa only [e] using this
    · intro h
      refine ⟨fun i hi => h i (by omega), fun j _ => h _ ?_⟩
      have := j.isLt
      omega

/-- SIXTEEN CHUNKS OF 256 ARE ALL 4096: the minimum taken chunk by chunk is the minimum. -/
theorem chunkFold_sixteen (g : ℕ → EReal) : chunkFold g 16 = min4096 fun m => g m.val := by
  refine eq_of_forall_le_iff fun c => ?_
  rw [le_chunkFold, le_fold_min_inf32]
  exact ⟨fun h m _ => h m.val m.isLt, fun h i hi => h ⟨i, hi⟩ (Finset.mem_univ _)⟩

end Cert.Chamfer

end
-- ==== Proof.LibMinFold.lean ====
/-
  A minimum reduction over one axis, read at an index over the extended reals.

  A float `vector.multi_reduction <minimumf>` over ONE axis is, at each reduced index, the fold of `min` from the
  accumulator's value over that axis's coordinates — the reduced index with the coordinate inserted on the dropped axis.
  It is the `minimumf` sibling of the library's one-axis `maximumf` form, at any rank, axis and extents; a proof then
  rewrites the fold term by term, or compares it with a host `reduce` by `minimum` read as the same fold.
-/
import Idealize.ShloMosaic.PureOps.Reduce
import Idealize.ShloMosaic.PureOps.Ideal
import Idealize.ShloMosaic.PureOps.Ideal.Laws

noncomputable section

namespace Cert.Lib

open Idealize.ShloMosaic

/-- A float `vector.multi_reduction <minimumf>` over ONE axis, read over the extended reals: at each reduced index, the
    fold of `min` from the accumulator's value over that axis's coordinates, the reduced index with the coordinate
    inserted on the dropped axis (`Shape.Reduces.lift`). At any rank, axis and extents. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.Lib

end
-- ==== Proof.KI.Payloads.lean ====
/-
  The body's arithmetic read at an index, over the extended reals.

  The distance tile of one column chunk is, at (batch row `b`, prediction point `n`, target point `j` of the chunk),
  the distance of the six coordinates loaded there. The chunk's column minima folded into the column-minimum block are
  "what was there, `min` the least over the 256 prediction points"; its row minima folded into the row accumulator are
  "what was there, `min` the least over the chunk's 256 target points"; both least values are folds of `min` from +∞.
-/
import proofs.«140327_j80092550135919_1_alg».proof.Proof.Gen.KernelIdeal.Skeleton
import proofs.«140327_j80092550135919_1_alg».proof.Proof.Spec
import proofs.«140327_j80092550135919_1_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.Chamfer Cert.Lib
open Idealize.ShloMosaic Idealize.ShloMosaic.TcCoe Idealize.ShloMosaic.ValueIdx Idealize.SL.Sem

/-! ## Column forms of the layout operations, read at an index given by coordinates -/

section Layout
variable {α : Type}

/-- An `[a, b]` array cast to `[a, b, 1]` reads, at `(i, j, u)`, the operand at `(i, j)`, whatever the unit coordinate. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`, whatever the unit coordinate. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one column at `(i, j)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-- The two resets store +∞ everywhere. -/
theorem pay1_apply (y : S8x4096.Idx) : k0_pay1 (F := Ideal) y = inf32 := rfl
theorem pay2_apply (y : S8x256.Idx) : k0_pay2 (F := Ideal) y = inf32 := by
  unfold k0_pay2
  exact (congrFun (shapeCast_self _ _) y).trans rfl

/-! ## The prediction side's and the chunk's planes, and the tile, read at an index -/

section Tile
variable {α : Type}

/-- A column of an `[a, b]` array spread along a new last axis of extent `c` reads, at `(i, j, k)`, the array at `(i, j)`. -/
private theorem colBroadcast_apply {a b c : ℕ} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ v h1) h2 (ix3 i j k) = v (ix2 i j) :=
  (broadcastTo_ab1_abc_apply _ h2 i j k).trans (shapeCast_ab_ab1_apply v h1 i j 0)

/-- A row of an `[a, c]` array spread along a new middle axis of extent `b` reads, at `(i, j, k)`, the array at `(i, k)`. -/
private theorem rowBroadcast_apply {a b c : ℕ} (v : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ v h1) h2 (ix3 i j k) = v (ix2 i k) :=
  (broadcastTo_a1c_abc_apply _ h2 i j k).trans (shapeCast_ab_a1b_apply v h1 i 0 k)

end Tile

/-- A prediction plane with its leading unit axis dropped reads, at `(b, n)`, the plane at `(0, b, n)`. -/
private theorem pay3_apply (v7 : Vec Ideal S1x8x256 .f32) (b : Fin 8) (n : Fin 256) :
    k0_pay3 (F := Ideal) v7 (ix2 b n) = v7 (ix3 0 b n) := by
  unfold k0_pay3
  exact shapeCast_1ab_ab_apply _ _ b n
private theorem pay4_apply (v9 : Vec Ideal S1x8x256 .f32) (b : Fin 8) (n : Fin 256) :
    k0_pay4 (F := Ideal) v9 (ix2 b n) = v9 (ix3 0 b n) := by
  unfold k0_pay4
  exact shapeCast_1ab_ab_apply _ _ b n
private theorem pay5_apply (v11 : Vec Ideal S1x8x256 .f32) (b : Fin 8) (n : Fin 256) :
    k0_pay5 (F := Ideal) v11 (ix2 b n) = v11 (ix3 0 b n) := by
  unfold k0_pay5
  exact shapeCast_1ab_ab_apply _ _ b n

/-- The chunk's planes pass through a cast to their own shape unchanged. -/
private theorem pay10_eq (v28 : Vec Ideal S8x256 .f32) : k0_pay10 (F := Ideal) v28 = v28 := by
  unfold k0_pay10
  exact shapeCast_self _ _
private theorem pay11_eq (v33 : Vec Ideal S8x256 .f32) : k0_pay11 (F := Ideal) v33 = v33 := by
  unfold k0_pay11
  exact shapeCast_self _ _
private theorem pay12_eq (v38 : Vec Ideal S8x256 .f32) : k0_pay12 (F := Ideal) v38 = v38 := by
  unfold k0_pay12
  exact shapeCast_self _ _

/-- The prediction point's squared norm at `(b, n)`. -/
private theorem pay6_apply (v7 v9 v11 : Vec Ideal S1x8x256 .f32) (b : Fin 8) (n : Fin 256) :
    k0_pay6 (F := Ideal) v7 v9 v11 (ix2 b n)
      = (v7 (ix3 0 b n) * v7 (ix3 0 b n) + v9 (ix3 0 b n) * v9 (ix3 0 b n)) + v11 (ix3 0 b n) * v11 (ix3 0 b n) := by
  unfold k0_pay6
  show (k0_pay3 v7 (ix2 b n) * k0_pay3 v7 (ix2 b n) + k0_pay4 v9 (ix2 b n) * k0_pay4 v9 (ix2 b n))
      + k0_pay5 v11 (ix2 b n) * k0_pay5 v11 (ix2 b n) = _
  rw [pay3_apply, pay4_apply, pay5_apply]

/-- The inner products' tile at `(b, n, j)`. -/
private theorem pay13_apply (v8 v10 v12 : FVec Ideal S8x256 .f32) (v28 v33 v38 : Vec Ideal S8x256 .f32)
    (b : Fin 8) (n j : Fin 256) :
    k0_pay13 (F := Ideal) v8 v10 v12 v28 v33 v38 (ix3 b n j)
      = (v8 (ix2 b n) * v28 (ix2 b j) + v10 (ix2 b n) * v33 (ix2 b j)) + v12 (ix2 b n) * v38 (ix2 b j) := by
  unfold k0_pay13
  rw [pay10_eq, pay11_eq, pay12_eq]
  exact congrArg₂ (· + ·)
    (congrArg₂ (· + ·)
      (congrArg₂ (· * ·) (colBroadcast_apply v8 _ _ b n j) (rowBroadcast_apply v28 _ _ b n j))
      (congrArg₂ (· * ·) (colBroadcast_apply v10 _ _ b n j) (rowBroadcast_apply v33 _ _ b n j)))
    (congrArg₂ (· * ·) (colBroadcast_apply v12 _ _ b n j) (rowBroadcast_apply v38 _ _ b n j))

/-- The target points' squared norms, as a row, at `(b, u, j)`. -/
private theorem pay14_apply (v28 v33 v38 : Vec Ideal S8x256 .f32) (b : Fin 8) (u : Fin 1) (j : Fin 256) :
    k0_pay14 (F := Ideal) v28 v33 v38 (ix3 b u j)
      = (v28 (ix2 b j) * v28 (ix2 b j) + v33 (ix2 b j) * v33 (ix2 b j)) + v38 (ix2 b j) * v38 (ix2 b j) := by
  unfold k0_pay14
  rw [pay10_eq, pay11_eq, pay12_eq]
  exact shapeCast_ab_a1b_apply _ _ b u j

/-- The prediction points' squared norms, as a column spread over the chunk, at `(b, n, j)`. -/
private theorem pay15_apply (v17 : FVec Ideal S8x256 .f32) (b : Fin 8) (n j : Fin 256) :
    k0_pay15 (F := Ideal) v17 (ix3 b n j) = v17 (ix2 b n) := by
  unfold k0_pay15
  exact colBroadcast_apply v17 _ _ b n j

/-- The tile from its three operands at `(b, n, j)`. -/
private theorem pay7_apply (v61 : FVec Ideal S8x256x256 .f32) (v63 : FVec Ideal S8x1x256 .f32) (v64 : FVec Ideal S8x256x256 .f32)
    (b : Fin 8) (n j : Fin 256) :
    k0_pay7 (F := Ideal) v61 v63 v64 (ix3 b n j)
      = Ideal.sqrt (max ((v64 (ix3 b n j) + v63 (ix3 b 0 j)) - two32 * v61 (ix3 b n j)) zero32) := by
  unfold k0_pay7
  exact congrArg (fun x => Ideal.sqrt (max ((v64 (ix3 b n j) + x) - two32 * v61 (ix3 b n j)) zero32))
    (broadcastTo_a1c_abc_apply v63 _ b n j)

/-- THE TILE at (b, n, j): the distance of the prediction point's three coordinates (the planes `v7`, `v9`, `v11` at
    (b, n)) and the target point's (the chunk's planes `v28`, `v33`, `v38` at (b, j)). -/
theorem tile_apply (v7 v9 v11 : Vec Ideal S1x8x256 .f32) (v28 v33 v38 : Vec Ideal S8x256 .f32) (b : Fin 8) (n j : Fin 256) :
    k0_pay7 (F := Ideal) (k0_pay13 (k0_pay3 v7) (k0_pay4 v9) (k0_pay5 v11) v28 v33 v38) (k0_pay14 v28 v33 v38) (k0_pay15 (k0_pay6 v7 v9 v11)) (ix3 b n j)
      = dist6 (v7 (ix3 0 b n)) (v9 (ix3 0 b n)) (v11 (ix3 0 b n)) (v28 (ix2 b j)) (v33 (ix2 b j)) (v38 (ix2 b j)) := by
  rw [pay7_apply, pay13_apply, pay14_apply, pay15_apply, pay6_apply, pay3_apply, pay4_apply, pay5_apply]
  rfl

/-! ## The chunk's two reductions of the tile -/

/-- Over the tile's shape, the index over `(b, j)` with `n` inserted on the middle axis is `(b, n, j)`. -/
private theorem lift_axis1 (h : S8x256x256.Reduces [1] S8x256) (b : Fin 8) (j n : Fin 256) :
    h.lift (ix2 b j) n = ix3 b n j := by
  funext c
  match c with
  | ⟨0, _⟩ => rfl
  | ⟨1, _⟩ => rfl
  | ⟨2, _⟩ => rfl

/-- Over the tile's shape, the index over `(b, n)` with `j` inserted on the last axis is `(b, n, j)`. -/
private theorem lift_axis2 (h : S8x256x256.Reduces [2] S8x256) (b : Fin 8) (n j : Fin 256) :
    h.lift (ix2 b n) j = ix3 b n j := by
  funext c
  match c with
  | ⟨0, _⟩ => rfl
  | ⟨1, _⟩ => rfl
  | ⟨2, _⟩ => rfl

/-- What the chunk stores into the column-minimum block at (b, j): what was there, `min` the least of the tile over `n`. -/
theorem pay8_apply (v61 : FVec Ideal S8x256x256 .f32) (v63 : FVec Ideal S8x1x256 .f32) (v64 : FVec Ideal S8x256x256 .f32)
    (v76 : Vec Ideal S8x256 .f32) (b : Fin 8) (j : Fin 256) :
    k0_pay8 (F := Ideal) v61 v63 v64 v76 (ix2 b j)
      = min (v76 (ix2 b j)) (min256 fun n => k0_pay7 (F := Ideal) v61 v63 v64 (ix3 b n j)) := by
  unfold k0_pay8
  refine congrArg₂ min (congrFun (shapeCast_self _ _) _) ?_
  refine (multiReduction_minimumf_single _ _ _ _ _ _).trans ?_
  exact congrArg (fun f : Fin 256 → EReal => Finset.fold min inf32 f Finset.univ)
    (funext fun n => congrArg (k0_pay7 (F := Ideal) v61 v63 v64) (lift_axis1 _ b j n))

/-- What the chunk stores into the row accumulator at (b, n): what was there, `min` the least of the tile over `j`. -/
theorem pay9_apply (v61 : FVec Ideal S8x256x256 .f32) (v63 : FVec Ideal S8x1x256 .f32) (v64 : FVec Ideal S8x256x256 .f32)
    (v81 : Vec Ideal S8x256 .f32) (b : Fin 8) (n : Fin 256) :
    k0_pay9 (F := Ideal) v61 v63 v64 v81 (ix2 b n)
      = min (v81 (ix2 b n)) (min256 fun j => k0_pay7 (F := Ideal) v61 v63 v64 (ix3 b n j)) := by
  unfold k0_pay9
  refine (congrFun (shapeCast_self _ _) _).trans ?_
  refine congrArg (min (v81 (ix2 b n))) ?_
  refine (multiReduction_minimumf_single _ _ _ _ _ _).trans ?_
  exact congrArg (fun f : Fin 256 → EReal => Finset.fold min inf32 f Finset.univ)
    (funext fun j => congrArg (k0_pay7 (F := Ideal) v61 v63 v64) (lift_axis2 _ b n j))

end Cert.KernelIdeal.Val

end
-- ==== Proof.KI.Views.lean ====
/-
  Where the body's loads and stores land, as index arithmetic.

  A column chunk `k` of the loop is columns `256 k … 256 k + 255` of an 8 × 4096 block: entry (b, j) of the chunk is
  entry (b, 256 k + j) of the block, and (b, m) lies in the chunk exactly when `256 k ≤ m < 256 k + 256`. The three
  coordinate planes of the target block are its slabs (d, ·, ·); a load of chunk `k` through plane `d` reads entry
  (d, b, 256 k + j). The three planes of the prediction block are loaded whole.
-/
import proofs.«140327_j80092550135919_1_alg».proof.Proof.Gen.KernelIdeal
import proofs.«140327_j80092550135919_1_alg».proof.Proof.KI.Loop
import Idealize.ShloMosaic.Lib.ValueIdx
import Idealize.ShloMosaic.Lib.Pipeline.Value
import Idealize.ShloMosaic.Lib.Writes

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]

/-- The loop makes sixteen trips. -/
theorem trips_eq : k0_t1_loop.trips = 16 := by
  decide

theorem trip_lt (k : Fin k0_t1_loop.trips) : k.val < 16 := Nat.lt_of_lt_of_le k.isLt k0_t1_abs.2.1

/-- Target point `j` of chunk `k`. -/
def chunkPt (k : Fin k0_t1_loop.trips) (j : Fin 256) : Fin 4096 :=
  ⟨256 * k.val + j.val, by have := trip_lt k; have := j.isLt; omega⟩

/-- Chunk `k`'s columns of an 8 × 4096 block, and the whole of an 8 × 256 block and of an 8 × 4096 block, as rectangles. -/
abbrev chunkRect (k : Fin k0_t1_loop.trips) : Rect S8x4096 := Rect.unit (s := S8x4096) (k0_off1 k) S8x256.size (k0_off1_inb k)
abbrev wholeRect : Rect S8x256 := Rect.unit (s := S8x256) ![0, 0] S8x256.size inb_S8x256_S8x256_0_0
abbrev wholeRect5 : Rect S8x4096 := Rect.unit (s := S8x4096) ![0, 0] S8x4096.size inb_S8x4096_S8x4096_0_0

theorem chunk_emb (k : Fin k0_t1_loop.trips) (b : Fin 8) (j : Fin 256) : (chunkRect k).emb (ix2 b j) = ix2 b (chunkPt k j) := by
  have e := k0_off1_eq k
  funext a; apply Fin.ext
  match a with
  | ⟨0, _⟩ =>
    show k0_off1 k 0 + 1 * b.val = b.val
    rw [e]; show 0 + 1 * b.val = b.val; omega
  | ⟨1, _⟩ =>
    show k0_off1 k 1 + 1 * j.val = 256 * k.val + j.val
    rw [e]; show 256 * k.val + 1 * j.val = 256 * k.val + j.val; omega
theorem chunk_mem (k : Fin k0_t1_loop.trips) (b : Fin 8) (m : Fin 4096) :
    ix2 b m ∈ (chunkRect k).set ↔ 256 * k.val ≤ m.val ∧ m.val < 256 * k.val + 256 := by
  have e := k0_off1_eq k
  rw [Rect.mem_set_unit]
  constructor
  · intro h
    have h1 := h 1
    rw [e] at h1
    exact h1
  · intro h a
    match a with
    | ⟨0, _⟩ =>
      rw [e]
      show 0 ≤ b.val ∧ b.val < 0 + 8
      have := b.isLt; omega
    | ⟨1, _⟩ =>
      rw [e]
      exact h
theorem whole_emb (b : Fin 8) (n : Fin 256) : wholeRect.emb (ix2 b n) = ix2 b n := by
  funext a; apply Fin.ext
  match a with
  | ⟨0, _⟩ => show 0 + 1 * b.val = b.val; omega
  | ⟨1, _⟩ => show 0 + 1 * n.val = n.val; omega
theorem whole5_emb (b : Fin 8) (m : Fin 4096) : wholeRect5.emb (ix2 b m) = ix2 b m := by
  funext a; apply Fin.ext
  match a with
  | ⟨0, _⟩ => show 0 + 1 * b.val = b.val; omega
  | ⟨1, _⟩ => show 0 + 1 * m.val = m.val; omega

/-! ## Loads -/

/-- A load of chunk `k` of an 8 × 4096 block reads the block's entries at the chunk's columns. -/
theorem chunk_readAt (M5 : Memref sig .tc .vmem S8x4096 .f32) (f5 : BufTy.Contents (Elt F) M5.view.ty)
    (k : Fin k0_t1_loop.trips) (b : Fin 8) (j : Fin 256) :
    View.readAt (Elt F) M5.view (chunkRect k).toLoadRect f5 (ix2 b j) = M5.view.read (Elt F) f5 (ix2 b (chunkPt k j)) := by
  rw [View.readAt_apply]
  exact congrArg (M5.view.read (Elt F) f5) (chunk_emb k b j)
/-- A load of a whole 8 × 256 block reads its entries. -/
theorem whole_readAt (M6 : Memref sig .tc .vmem S8x256 .f32) (f6 : BufTy.Contents (Elt F) M6.view.ty) (b : Fin 8) (n : Fin 256) :
    View.readAt (Elt F) M6.view wholeRect.toLoadRect f6 (ix2 b n) = M6.view.read (Elt F) f6 (ix2 b n) := by
  rw [View.readAt_apply]
  exact congrArg (M6.view.read (Elt F) f6) (whole_emb b n)

/-- A load of chunk `k` through the slab at coordinate `o` of a 3 × 8 × 4096 block, the slab read as an 8 × 4096 block:
    entry (b, j) of what is loaded is entry (o, b, 256 k + j) of the block. -/
private theorem tslab_read (M3 : Memref sig .tc .vmem S3x8x4096 .f32) (h3 : M3.IsWhole) (x3 : Vec F S3x8x4096 .f32)
    (o : Nat) (ho : o < 3) (inb : ∀ a, (![o, 0, 0] : Fin 3 → Nat) a + S1x8x4096.size a ≤ S3x8x4096.size a)
    (hr : ∀ a, (Rect.unit (s := S3x8x4096) ![o, 0, 0] S1x8x4096.size inb).stride a = 1)
    (k : Fin k0_t1_loop.trips) (b : Fin 8) (j : Fin 256) :
    View.readAt (Elt F) ((M3.slice (Rect.unit (s := S3x8x4096) ![o, 0, 0] S1x8x4096.size inb) hr).squeeze S8x4096 squeezes_S1x8x4096_S8x4096).view
      (chunkRect k).toLoadRect (h3.unread x3) (ix2 b j) = x3 (ix3 ⟨o, ho⟩ b (chunkPt k j)) := by
  refine (chunk_readAt _ _ k b j).trans ?_
  refine (congrFun (Memref.read_squeeze_slice M3 (Rect.unit (s := S3x8x4096) ![o, 0, 0] S1x8x4096.size inb) hr squeezes_S1x8x4096_S8x4096
    (show S1x8x4096.ShapeCasts S8x4096 by decide) (h3.unread x3)) _).trans ?_
  refine (shapeCast_dropUnit_apply ![8, 4096] _ _ (ix2 b (chunkPt k j))).trans ?_
  refine (View.readAt_apply _ _ _).trans ?_
  refine (congrFun (h3.read_unread x3) _).trans (congrArg x3 ?_)
  funext a; apply Fin.ext
  match a with
  | ⟨0, _⟩ => show o + 1 * 0 = o; omega
  | ⟨1, _⟩ => show 0 + 1 * b.val = b.val; omega
  | ⟨2, _⟩ => show 0 + 1 * (256 * k.val + j.val) = 256 * k.val + j.val; omega

/-- The trip's loads of the target block's three coordinate planes at chunk `k`. -/
theorem v28_apply (M3 : Memref sig .tc .vmem S3x8x4096 .f32) (h3 : M3.IsWhole) (x3 : Vec F S3x8x4096 .f32)
    (k : Fin k0_t1_loop.trips) (b : Fin 8) (j : Fin 256) :
    Body.tripW.sl.v28 (F := F) M3 (h3.unread x3) k (ix2 b j) = x3 (ix3 0 b (chunkPt k j)) := by
  unfold Body.tripW.sl.v28
  exact tslab_read M3 h3 x3 0 (by omega) _ _ k b j
theorem v33_apply (M3 : Memref sig .tc .vmem S3x8x4096 .f32) (h3 : M3.IsWhole) (x3 : Vec F S3x8x4096 .f32)
    (k : Fin k0_t1_loop.trips) (b : Fin 8) (j : Fin 256) :
    Body.tripW.sl.v33 (F := F) M3 (h3.unread x3) k (ix2 b j) = x3 (ix3 1 b (chunkPt k j)) := by
  unfold Body.tripW.sl.v33
  exact tslab_read M3 h3 x3 1 (by omega) _ _ k b j
theorem v38_apply (M3 : Memref sig .tc .vmem S3x8x4096 .f32) (h3 : M3.IsWhole) (x3 : Vec F S3x8x4096 .f32)
    (k : Fin k0_t1_loop.trips) (b : Fin 8) (j : Fin 256) :
    Body.tripW.sl.v38 (F := F) M3 (h3.unread x3) k (ix2 b j) = x3 (ix3 2 b (chunkPt k j)) := by
  unfold Body.tripW.sl.v38
  exact tslab_read M3 h3 x3 2 (by omega) _ _ k b j

/-- A load of the slab at coordinate `o` of a 3 × 8 × 256 block: entry (0, b, n) of what is loaded is entry (o, b, n) of the
    block. -/
private theorem pslab_read (M2 : Memref sig .tc .vmem S3x8x256 .f32) (h2 : M2.IsWhole) (x2 : Vec F S3x8x256 .f32)
    (o : Nat) (ho : o < 3) (inb : ∀ a, (![o, 0, 0] : Fin 3 → Nat) a + S1x8x256.size a ≤ S3x8x256.size a) (b : Fin 8) (n : Fin 256) :
    View.readAt (Elt F) M2.view (Rect.unit (s := S3x8x256) ![o, 0, 0] S1x8x256.size inb).toLoadRect (h2.unread x2) (ix3 0 b n)
      = x2 (ix3 ⟨o, ho⟩ b n) := by
  refine (View.readAt_apply _ _ _).trans ?_
  refine (congrFun (h2.read_unread x2) _).trans (congrArg x2 ?_)
  funext a; apply Fin.ext
  match a with
  | ⟨0, _⟩ => show o + 1 * 0 = o; omega
  | ⟨1, _⟩ => show 0 + 1 * b.val = b.val; omega
  | ⟨2, _⟩ => show 0 + 1 * n.val = n.val; omega

/-- The body's loads of the prediction block's three coordinate planes. -/
theorem pred_read0 (M2 : Memref sig .tc .vmem S3x8x256 .f32) (h2 : M2.IsWhole) (x2 : Vec F S3x8x256 .f32) (b : Fin 8) (n : Fin 256) :
    View.readAt (Elt F) M2.view (Rect.unit (s := S3x8x256) ![0, 0, 0] S1x8x256.size inb_S3x8x256_S1x8x256_0_0_0).toLoadRect (h2.unread x2) (ix3 0 b n)
      = x2 (ix3 0 b n) := by
  exact pslab_read M2 h2 x2 0 (by omega) _ b n
theorem pred_read1 (M2 : Memref sig .tc .vmem S3x8x256 .f32) (h2 : M2.IsWhole) (x2 : Vec F S3x8x256 .f32) (b : Fin 8) (n : Fin 256) :
    View.readAt (Elt F) M2.view (Rect.unit (s := S3x8x256) ![1, 0, 0] S1x8x256.size inb_S3x8x256_S1x8x256_1_0_0).toLoadRect (h2.unread x2) (ix3 0 b n)
      = x2 (ix3 1 b n) := by
  exact pslab_read M2 h2 x2 1 (by omega) _ b n
theorem pred_read2 (M2 : Memref sig .tc .vmem S3x8x256 .f32) (h2 : M2.IsWhole) (x2 : Vec F S3x8x256 .f32) (b : Fin 8) (n : Fin 256) :
    View.readAt (Elt F) M2.view (Rect.unit (s := S3x8x256) ![2, 0, 0] S1x8x256.size inb_S3x8x256_S1x8x256_2_0_0).toLoadRect (h2.unread x2) (ix3 0 b n)
      = x2 (ix3 2 b n) := by
  exact pslab_read M2 h2 x2 2 (by omega) _ b n

end Cert.KernelIdeal.Val

end
-- ==== Proof.KI.Stores.lean ====
/-
  One store read back.

  A store of a payload through a rectangle of a block is read back as the payload inside the rectangle and as what was
  there outside it; a store through the whole block is read back as the payload everywhere, whatever was there before
  and whatever was written before it.
-/
import proofs.«140327_j80092550135919_1_alg».proof.Proof.KI.Views
import Idealize.ShloMosaic.Lib.ValueIdx
import Idealize.ShloMosaic.Lib.Writes

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]

/-- Inside the chunk a store of `w` through it reads `w`; -/
theorem read_chunk_piece_in (M5 : Memref sig .tc .vmem S8x4096 .f32) (f5 : BufTy.Contents (Elt F) M5.view.ty)
    (k : Fin k0_t1_loop.trips) (w : (chunkRect k).shape.Idx → Elt F .f32) (b : Fin 8) (j : Fin 256) :
    M5.view.read (Elt F) (M5.view.writes (Elt F) f5 [⟨chunkRect k, w⟩]) (ix2 b (chunkPt k j)) = w (ix2 b j) := by
  have e := View.read_writes_cons_emb M5.view f5 (chunkRect k) w [] (ix2 b j)
  rwa [chunk_emb] at e
/-- outside it what was there. -/
theorem read_chunk_piece_out (M5 : Memref sig .tc .vmem S8x4096 .f32) (f5 : BufTy.Contents (Elt F) M5.view.ty)
    (k : Fin k0_t1_loop.trips) (w : (chunkRect k).shape.Idx → Elt F .f32) (b : Fin 8) (m : Fin 4096)
    (h : ¬(256 * k.val ≤ m.val ∧ m.val < 256 * k.val + 256)) :
    M5.view.read (Elt F) (M5.view.writes (Elt F) f5 [⟨chunkRect k, w⟩]) (ix2 b m) = M5.view.read (Elt F) f5 (ix2 b m) := by
  refine View.read_writes_apply_of_forall_not_mem M5.view f5 (ix2 b m) _ fun p hp => ?_
  obtain rfl := List.mem_singleton.mp hp
  exact fun hm => h ((chunk_mem k b m).mp hm)
/-- A store of `w` through a whole block reads `w`, whatever was there and whatever is written first. -/
theorem read_whole_piece (M6 : Memref sig .tc .vmem S8x256 .f32) (f6 : BufTy.Contents (Elt F) M6.view.ty)
    (w : wholeRect.shape.Idx → Elt F .f32) (L : List (View.Piece (Elt F) S8x256 .f32)) (b : Fin 8) (n : Fin 256) :
    M6.view.read (Elt F) (M6.view.writes (Elt F) f6 (⟨wholeRect, w⟩ :: L)) (ix2 b n) = w (ix2 b n) := by
  have e := View.read_writes_cons_emb M6.view f6 wholeRect w L (ix2 b n)
  rwa [whole_emb] at e
theorem read_whole5_piece (M5 : Memref sig .tc .vmem S8x4096 .f32) (f5 : BufTy.Contents (Elt F) M5.view.ty)
    (w : wholeRect5.shape.Idx → Elt F .f32) (L : List (View.Piece (Elt F) S8x4096 .f32)) (b : Fin 8) (m : Fin 4096) :
    M5.view.read (Elt F) (M5.view.writes (Elt F) f5 (⟨wholeRect5, w⟩ :: L)) (ix2 b m) = w (ix2 b m) := by
  have e := View.read_writes_cons_emb M5.view f5 wholeRect5 w L (ix2 b m)
  rwa [whole5_emb] at e

end Cert.KernelIdeal.Val

end
-- ==== Proof.KI.BodyValue.lean ====
/-
  What the body leaves in its two output blocks, entry by entry, over the extended reals.

  Write `tile b n m` for the distance between prediction point `n` and target point `m` of batch row `b`, built from
  the point's two input blocks. Each trip of the loop folds one 256-wide chunk of target points: into the row
  accumulator at (b, n) the least of `tile b n ·` over the chunk, into the column-minimum block at the chunk's columns
  (b, m) the least of `tile b · m` over the 256 prediction points, each by `min` with what was there. The row
  accumulator starts at +∞ at every point, so after the sixteen chunks it holds at (b, n) the least of `tile b n ·`
  over all 4096 target points, and that is what is copied out. The column-minimum block starts at +∞ at a first tile
  and at what the tile before left otherwise, so it ends at `min` of that with the least of `tile b · m` over the
  256 prediction points.
-/
import proofs.«140327_j80092550135919_1_alg».proof.Proof.KI.Run
import proofs.«140327_j80092550135919_1_alg».proof.Proof.KI.Payloads
import proofs.«140327_j80092550135919_1_alg».proof.Proof.KI.Views
import proofs.«140327_j80092550135919_1_alg».proof.Proof.KI.Stores
import proofs.«140327_j80092550135919_1_alg».proof.Proof.Spec
import Idealize.ShloMosaic.Lib.ValueIdx
import Idealize.ShloMosaic.Lib.Pipeline.Value
import Idealize.ShloMosaic.Lib.Writes

set_option maxRecDepth 16384

noncomputable section

namespace Cert.KernelIdeal.Val

open Cert.KernelIdeal Cert.KernelIdeal.Gen Cert.KernelIdeal.Body Cert.Chamfer
open Idealize.ShloMosaic Idealize.ShloMosaic.TcCoe Idealize.ShloMosaic.ValueIdx Idealize.SL.Sem

/-- The distance tile of a grid point, from its prediction block `x2` (coordinate, batch row, point) and its target
    block `x3` (coordinate, batch row, point). -/
def btile (x2 : Vec Ideal S3x8x256 .f32) (x3 : Vec Ideal S3x8x4096 .f32) (b : Fin 8) (n : Fin 256) (m : Fin 4096) : EReal :=
  dist6 (x2 (ix3 0 b n)) (x2 (ix3 1 b n)) (x2 (ix3 2 b n)) (x3 (ix3 0 b m)) (x3 (ix3 1 b m)) (x3 (ix3 2 b m))

/-! ## One trip of the loop -/

section Loop

variable (𝒱 : Variants) (c : Dev nD) (bd : Option 𝒱.V) (i : grid0.Coords)
  (M2 : Memref sig .tc .vmem S3x8x256 .f32) (h2 : M2.IsWhole) (M3 : Memref sig .tc .vmem S3x8x4096 .f32) (h3 : M3.IsWhole)
  (M4 : Memref sig .tc .vmem S8x256 .f32) (h4 : M4.IsWhole) (M5 : Memref sig .tc .vmem S8x4096 .f32) (h5 : M5.IsWhole)
  (M6 : Memref sig .tc .vmem S8x256 .f32) (h6 : M6.IsWhole)
  (v7 v9 v11 : Vec Ideal S1x8x256 .f32) (x3 : Vec Ideal S3x8x4096 .f32)
  (G5 : BufTy.Contents (Elt Ideal) M5.view.ty) (G6 : BufTy.Contents (Elt Ideal) M6.view.ty)

/-- The tile from the three loaded prediction planes and the target block. -/
def ptile (b : Fin 8) (n : Fin 256) (m : Fin 4096) : EReal :=
  dist6 (v7 (ix3 0 b n)) (v9 (ix3 0 b n)) (v11 (ix3 0 b n)) (x3 (ix3 0 b m)) (x3 (ix3 1 b m)) (x3 (ix3 2 b m))
/-- The same with the target point a natural number (+∞ past the last one). -/
def ptileN (b : Fin 8) (n : Fin 256) (m' : ℕ) : EReal := if h : m' < 4096 then ptile v7 v9 v11 x3 b n ⟨m', h⟩ else inf32

/-- The trip's piece for the column-minimum block: one store at the chunk's columns. -/
theorem trip_fst (k : Fin k0_t1_loop.trips) (f5 : BufTy.Contents (Elt Ideal) M5.view.ty) (f6 : BufTy.Contents (Elt Ideal) M6.view.ty) :
    (tripLW (F := Ideal) 𝒱 c bd i M2 h2 M3 h3 M4 h4 M5 h5 M6 h6 v7 v9 v11 (h3.unread x3) k f5 f6).1
      = [⟨chunkRect k, k0_pay8 (F := Ideal) (tripW.sl.r M3 v7 v9 v11 (h3.unread x3) k) (tripW.sl.r_1 M3 (h3.unread x3) k) (tripW.sl.r_2 v7 v9 v11)
            (View.readAt (Elt Ideal) M5.view (chunkRect k).toLoadRect f5)⟩] := by
  show (tripW (F := Ideal) 𝒱 c bd i M2 h2 M3 h3 M4 h4 M5 h5 M6 h6 v7 v9 v11 (h3.unread x3) k).1 f5 f6 = _
  unfold tripW
  rfl

/-- The trip's piece for the row accumulator: one store of the whole block. -/
theorem trip_snd (k : Fin k0_t1_loop.trips) (f5 : BufTy.Contents (Elt Ideal) M5.view.ty) (f6 : BufTy.Contents (Elt Ideal) M6.view.ty) :
    (tripLW (F := Ideal) 𝒱 c bd i M2 h2 M3 h3 M4 h4 M5 h5 M6 h6 v7 v9 v11 (h3.unread x3) k f5 f6).2
      = [⟨wholeRect, k0_pay9 (F := Ideal) (tripW.sl.r M3 v7 v9 v11 (h3.unread x3) k) (tripW.sl.r_1 M3 (h3.unread x3) k) (tripW.sl.r_2 v7 v9 v11)
            (View.readAt (Elt Ideal) M6.view wholeRect.toLoadRect f6)⟩] := by
  show (tripW (F := Ideal) 𝒱 c bd i M2 h2 M3 h3 M4 h4 M5 h5 M6 h6 v7 v9 v11 (h3.unread x3) k).2.1 f5 f6 = _
  unfold tripW
  rfl

/-- The chunk's tile at (b, n, j) is the tile at target point `256 k + j`. -/
theorem trip_tile (k : Fin k0_t1_loop.trips) (b : Fin 8) (n j : Fin 256) :
    k0_pay7 (F := Ideal) (tripW.sl.r M3 v7 v9 v11 (h3.unread x3) k) (tripW.sl.r_1 M3 (h3.unread x3) k) (tripW.sl.r_2 v7 v9 v11) (ix3 b n j)
      = ptile v7 v9 v11 x3 b n (chunkPt k j) := by
  unfold tripW.sl.r tripW.sl.r_1 tripW.sl.r_2
  rw [tile_apply, v28_apply, v33_apply, v38_apply]
  rfl

/-- What the trip stores into the column-minimum block at (b, j) of the chunk. -/
theorem trip_col (k : Fin k0_t1_loop.trips) (f5 : BufTy.Contents (Elt Ideal) M5.view.ty) (b : Fin 8) (j : Fin 256) :
    k0_pay8 (F := Ideal) (tripW.sl.r M3 v7 v9 v11 (h3.unread x3) k) (tripW.sl.r_1 M3 (h3.unread x3) k) (tripW.sl.r_2 v7 v9 v11)
        (View.readAt (Elt Ideal) M5.view (chunkRect k).toLoadRect f5) (ix2 b j)
      = min (M5.view.read (Elt Ideal) f5 (ix2 b (chunkPt k j))) (min256 fun n => ptile v7 v9 v11 x3 b n (chunkPt k j)) := by
  rw [pay8_apply, chunk_readAt]
  refine congrArg (min _) ?_
  exact Finset.fold_congr fun n _ => trip_tile M3 h3 v7 v9 v11 x3 k b n j

/-- What the trip stores into the row accumulator at (b, n). -/
theorem trip_row (k : Fin k0_t1_loop.trips) (f6 : BufTy.Contents (Elt Ideal) M6.view.ty) (b : Fin 8) (n : Fin 256) :
    k0_pay9 (F := Ideal) (tripW.sl.r M3 v7 v9 v11 (h3.unread x3) k) (tripW.sl.r_1 M3 (h3.unread x3) k) (tripW.sl.r_2 v7 v9 v11)
        (View.readAt (Elt Ideal) M6.view wholeRect.toLoadRect f6) (ix2 b n)
      = min (M6.view.read (Elt Ideal) f6 (ix2 b n)) (min256 fun j => ptile v7 v9 v11 x3 b n (chunkPt k j)) := by
  rw [pay9_apply, whole_readAt]
  refine congrArg (min _) ?_
  exact Finset.fold_congr fun j _ => trip_tile M3 h3 v7 v9 v11 x3 k b n j

/-! ## The loop, trip by trip -/

/-- The pieces of the trips before `k`. -/
local notation "PB" => pbW (F := Ideal) 𝒱 c bd i M2 h2 M3 h3 M4 h4 M5 h5 M6 h6 v7 v9 v11 (h3.unread x3) G5 G6

/-- The column-minimum block and the row accumulator before trip `k`. -/
abbrev st5 (k : ℕ) : BufTy.Contents (Elt Ideal) M5.view.ty := M5.view.writes (Elt Ideal) G5 (PB k).1
abbrev st6 (k : ℕ) : BufTy.Contents (Elt Ideal) M6.view.ty := M6.view.writes (Elt Ideal) G6 (PB k).2

local notation "ST5" => st5 𝒱 c bd i M2 h2 M3 h3 M4 h4 M5 h5 M6 h6 v7 v9 v11 x3 G5 G6
local notation "ST6" => st6 𝒱 c bd i M2 h2 M3 h3 M4 h4 M5 h5 M6 h6 v7 v9 v11 x3 G5 G6

/-- One trip more: the trip's store over what the trips before left, in each block. -/
theorem st5_succ (k : Fin k0_t1_loop.trips) :
    ST5 (k.val + 1) = M5.view.writes (Elt Ideal) (ST5 k.val)
      [⟨chunkRect k, k0_pay8 (F := Ideal) (tripW.sl.r M3 v7 v9 v11 (h3.unread x3) k) (tripW.sl.r_1 M3 (h3.unread x3) k) (tripW.sl.r_2 v7 v9 v11)
          (View.readAt (Elt Ideal) M5.view (chunkRect k).toLoadRect (ST5 k.val))⟩] := by
  unfold st5
  rw [pbW_succ]
  dsimp only
  rw [View.writes_append]
  exact congrArg _ (trip_fst 𝒱 c bd i M2 h2 M3 h3 M4 h4 M5 h5 M6 h6 v7 v9 v11 x3 k _ _)

theorem st6_succ (k : Fin k0_t1_loop.trips) :
    ST6 (k.val + 1) = M6.view.writes (Elt Ideal) (ST6 k.val)
      [⟨wholeRect, k0_pay9 (F := Ideal) (tripW.sl.r M3 v7 v9 v11 (h3.unread x3) k) (tripW.sl.r_1 M3 (h3.unread x3) k) (tripW.sl.r_2 v7 v9 v11)
          (View.readAt (Elt Ideal) M6.view wholeRect.toLoadRect (ST6 k.val))⟩] := by
  unfold st6
  rw [pbW_succ]
  dsimp only
  rw [View.writes_append]
  exact congrArg _ (trip_snd 𝒱 c bd i M2 h2 M3 h3 M4 h4 M5 h5 M6 h6 v7 v9 v11 x3 k _ _)

/-- THE ROW ACCUMULATOR before trip `k`: what it held at loop entry, `min` the least of the tile over the target
    points of the chunks before `k` — the minimum taken chunk by chunk. -/
theorem row_inv (k : ℕ) (hk : k ≤ 16) (b : Fin 8) (n : Fin 256) :
    M6.view.read (Elt Ideal) (ST6 k) (ix2 b n)
      = chunkFoldFrom (M6.view.read (Elt Ideal) G6 (ix2 b n)) (ptileN v7 v9 v11 x3 b n) k := by
  induction k with
  | zero => rfl
  | succ k ih =>
    have hk' : k < k0_t1_loop.trips := by rw [trips_eq]; omega
    have e := st6_succ 𝒱 c bd i M2 h2 M3 h3 M4 h4 M5 h5 M6 h6 v7 v9 v11 x3 G5 G6 ⟨k, hk'⟩
    rw [show (⟨k, hk'⟩ : Fin k0_t1_loop.trips).val = k from rfl] at e
    rw [e, read_whole_piece, trip_row, ih (by omega)]
    refine congrArg (min _) ?_
    refine Finset.fold_congr fun j _ => ?_
    unfold ptileN
    have hj : 256 * k + j.val < 4096 := by have := j.isLt; omega
    rw [dif_pos hj]
    rfl

/-- THE COLUMN-MINIMUM BLOCK before trip `k`: at the columns of the chunks before `k`, what it held at loop entry
    `min` the least of the tile over the 256 prediction points; at the other columns what it held. -/
theorem col_inv (k : ℕ) (hk : k ≤ 16) (b : Fin 8) (m : Fin 4096) :
    M5.view.read (Elt Ideal) (ST5 k) (ix2 b m)
      = if m.val < 256 * k then min (M5.view.read (Elt Ideal) G5 (ix2 b m)) (min256 fun n => ptile v7 v9 v11 x3 b n m)
        else M5.view.read (Elt Ideal) G5 (ix2 b m) := by
  induction k generalizing m with
  | zero => rw [if_neg (by omega)]; rfl
  | succ k ih =>
    have hk' : k < k0_t1_loop.trips := by rw [trips_eq]; omega
    have e := st5_succ 𝒱 c bd i M2 h2 M3 h3 M4 h4 M5 h5 M6 h6 v7 v9 v11 x3 G5 G6 ⟨k, hk'⟩
    rw [show (⟨k, hk'⟩ : Fin k0_t1_loop.trips).val = k from rfl] at e
    rw [e]
    by_cases hin : 256 * k ≤ m.val ∧ m.val < 256 * k + 256
    · obtain ⟨j, rfl⟩ : ∃ j : Fin 256, m = chunkPt ⟨k, hk'⟩ j :=
        ⟨⟨m.val - 256 * k, by omega⟩, Fin.ext (by show m.val = 256 * k + (m.val - 256 * k); omega)⟩
      rw [read_chunk_piece_in, trip_col, ih (by omega)]
      have hv : (chunkPt ⟨k, hk'⟩ j).val = 256 * k + j.val := rfl
      rw [if_neg (by rw [hv]; omega), if_pos (by rw [hv]; have := j.isLt; omega)]
    · rw [read_chunk_piece_out _ _ _ _ _ _ hin, ih (by omega)]
      by_cases hlt : m.val < 256 * k
      · rw [if_pos hlt, if_pos (by omega)]
      · rw [if_neg hlt, if_neg (by omega)]

/-- After the sixteen trips the row accumulator holds, at (b, n), what it held at loop entry `min` the least of the
    tile over ALL target points: sixteen chunks of 256 are all 4096. -/
theorem row_final (b : Fin 8) (n : Fin 256) :
    M6.view.read (Elt Ideal) (ST6 16) (ix2 b n)
      = min (M6.view.read (Elt Ideal) G6 (ix2 b n)) (min4096 fun m => ptile v7 v9 v11 x3 b n m) := by
  rw [row_inv 𝒱 c bd i M2 h2 M3 h3 M4 h4 M5 h5 M6 h6 v7 v9 v11 x3 G5 G6 16 le_rfl b n, chunkFoldFrom_eq, chunkFold_sixteen]
  refine congrArg (min _) ?_
  refine Finset.fold_congr fun m _ => ?_
  unfold ptileN
  rw [dif_pos m.isLt]

/-- After the sixteen trips the column-minimum block holds, at every (b, m), what it held at loop entry `min` the least
    of the tile over the 256 prediction points. -/
theorem col_final (b : Fin 8) (m : Fin 4096) :
    M5.view.read (Elt Ideal) (ST5 16) (ix2 b m)
      = min (M5.view.read (Elt Ideal) G5 (ix2 b m)) (min256 fun n => ptile v7 v9 v11 x3 b n m) := by
  rw [col_inv 𝒱 c bd i M2 h2 M3 h3 M4 h4 M5 h5 M6 h6 v7 v9 v11 x3 G5 G6 16 le_rfl b m, if_pos (by have := m.isLt; omega)]

end Loop

/-! ## The body's two blocks -/

/-- The tile from the three loaded planes of the prediction block is the tile of the two blocks. -/
theorem ptile_loaded (M2 : Memref sig .tc .vmem S3x8x256 .f32) (h2 : M2.IsWhole) (x2 : Vec Ideal S3x8x256 .f32) (x3 : Vec Ideal S3x8x4096 .f32)
    (b : Fin 8) (n : Fin 256) (m : Fin 4096) :
    ptile (View.readAt (Elt Ideal) M2.view (Rect.unit (s := S3x8x256) ![0, 0, 0] S1x8x256.size inb_S3x8x256_S1x8x256_0_0_0).toLoadRect (h2.unread x2))
        (View.readAt (Elt Ideal) M2.view (Rect.unit (s := S3x8x256) ![1, 0, 0] S1x8x256.size inb_S3x8x256_S1x8x256_1_0_0).toLoadRect (h2.unread x2))
        (View.readAt (Elt Ideal) M2.view (Rect.unit (s := S3x8x256) ![2, 0, 0] S1x8x256.size inb_S3x8x256_S1x8x256_2_0_0).toLoadRect (h2.unread x2))
        x3 b n m
      = btile x2 x3 b n m := by
  unfold ptile btile
  rw [pred_read0, pred_read1, pred_read2]

/-- +∞ is the unit of `min`. -/
theorem min_inf32 (x : EReal) : min inf32 x = x := by rw [inf32_eq_top]; exact min_top_left x

/-- The sixteen trips, as the found runs spell the count. -/
theorem trips_sixteen : Scf.trips k0_t1_loop.lb k0_t1_loop.ub k0_t1_loop.st = 16 := trips_eq

/-- The row-minimum block after a first tile: the least distance over all target points. -/
theorem rowFirst_apply (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i)
    (x2 : Vec Ideal S3x8x256 .f32) (x3 : Vec Ideal S3x8x4096 .f32) (b : Fin 8) (n : Fin 256) :
    rowFirst (F := Ideal) c i M2 h2 M3 h3 M4 h4 M5 h5 M6 h6 hc x2 x3 (ix2 b n) = min4096 fun m => btile x2 x3 b n m := by
  unfold rowFirst
  have e1 : (runFirst (F := Ideal) c i M2 h2 M3 h3 M4 h4 M5 h5 M6 h6 hc x2 x3).1 = [⟨wholeRect, runFirst.sl.v19 c i M2 h2 M3 h3 M4 h4 M5 h5 M6 h6 x2 x3⟩] := by
    unfold runFirst; rfl
  rw [e1, read_whole_piece]
  unfold runFirst.sl.v19
  rw [whole_readAt, View.writes_append, trips_sixteen, row_final]
  unfold runFirst.sl.H6_1
  rw [read_whole_piece, pay2_apply, min_inf32]
  exact Finset.fold_congr fun m _ => ptile_loaded M2 h2 x2 x3 b n m

/-- The column-minimum block after a first tile: the least distance over the tile's 256 prediction points. -/
theorem colFirst_apply (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : firstTile i)
    (x2 : Vec Ideal S3x8x256 .f32) (x3 : Vec Ideal S3x8x4096 .f32) (b : Fin 8) (m : Fin 4096) :
    colFirst (F := Ideal) c i M2 h2 M3 h3 M4 h4 M5 h5 M6 h6 hc x2 x3 (ix2 b m) = min256 fun n => btile x2 x3 b n m := by
  unfold colFirst
  have e2 : (runFirst (F := Ideal) c i M2 h2 M3 h3 M4 h4 M5 h5 M6 h6 hc x2 x3).2.1
      = (pbW (F := Ideal) 𝒱₀ c none i M2 h2 M3 h3 M4 h4 M5 h5 M6 h6
          (View.readAt (Elt Ideal) M2.view (Rect.unit (s := S3x8x256) ![0, 0, 0] S1x8x256.size inb_S3x8x256_S1x8x256_0_0_0).toLoadRect (h2.unread x2))
          (View.readAt (Elt Ideal) M2.view (Rect.unit (s := S3x8x256) ![1, 0, 0] S1x8x256.size inb_S3x8x256_S1x8x256_1_0_0).toLoadRect (h2.unread x2))
          (View.readAt (Elt Ideal) M2.view (Rect.unit (s := S3x8x256) ![2, 0, 0] S1x8x256.size inb_S3x8x256_S1x8x256_2_0_0).toLoadRect (h2.unread x2))
          (h3.unread x3) (M5.view.writes (Elt Ideal) M5.view.junk runFirst.sl.H5_1) (M6.view.writes (Elt Ideal) M6.view.junk runFirst.sl.H6_1)
          (Scf.trips k0_t1_loop.lb k0_t1_loop.ub k0_t1_loop.st)).1 ++ runFirst.sl.H5_1 := by
    unfold runFirst; rfl
  rw [e2, View.writes_append, trips_sixteen, col_final]
  unfold runFirst.sl.H5_1
  rw [read_whole5_piece, pay1_apply, min_inf32]
  exact Finset.fold_congr fun n _ => ptile_loaded M2 h2 x2 x3 b n m

/-- The row-minimum block after a later tile: the same as at a first tile. -/
theorem rowLater_apply (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i)
    (x2 : Vec Ideal S3x8x256 .f32) (x3 : Vec Ideal S3x8x4096 .f32) (x5 : Vec Ideal S8x4096 .f32) (b : Fin 8) (n : Fin 256) :
    rowLater (F := Ideal) c i M2 h2 M3 h3 M4 h4 M5 h5 M6 h6 hc x2 x3 x5 (ix2 b n) = min4096 fun m => btile x2 x3 b n m := by
  unfold rowLater
  have e1 : (runLater (F := Ideal) c i M2 h2 M3 h3 M4 h4 M5 h5 M6 h6 hc x2 x3 x5).1 = [⟨wholeRect, runLater.sl.v19 c i M2 h2 M3 h3 M4 h4 M5 h5 M6 h6 x2 x3 x5⟩] := by
    unfold runLater; rfl
  rw [e1, read_whole_piece]
  unfold runLater.sl.v19
  rw [whole_readAt, View.writes_append, trips_sixteen, row_final]
  unfold runLater.sl.H6_1
  rw [read_whole_piece, pay2_apply, min_inf32]
  exact Finset.fold_congr fun m _ => ptile_loaded M2 h2 x2 x3 b n m

/-- The column-minimum block after a later tile: what the tile before left, `min` this tile's least distance. -/
theorem colLater_apply (c : Dev nD) (i : grid0.Coords)
    (M2 : Memref sig .tc .vmem S3x8x256 .f32) (h2 : M2.IsWhole) (M3 : Memref sig .tc .vmem S3x8x4096 .f32) (h3 : M3.IsWhole)
    (M4 : Memref sig .tc .vmem S8x256 .f32) (h4 : M4.IsWhole) (M5 : Memref sig .tc .vmem S8x4096 .f32) (h5 : M5.IsWhole)
    (M6 : Memref sig .tc .vmem S8x256 .f32) (h6 : M6.IsWhole) (hc : ¬firstTile i)
    (x2 : Vec Ideal S3x8x256 .f32) (x3 : Vec Ideal S3x8x4096 .f32) (x5 : Vec Ideal S8x4096 .f32) (b : Fin 8) (m : Fin 4096) :
    colLater (F := Ideal) c i M2 h2 M3 h3 M4 h4 M5 h5 M6 h6 hc x2 x3 x5 (ix2 b m) = min (x5 (ix2 b m)) (min256 fun n => btile x2 x3 b n m) := by
  unfold colLater
  have e2 : (runLater (F := Ideal) c i M2 h2 M3 h3 M4 h4 M5 h5 M6 h6 hc x2 x3 x5).2.1
      = (pbW (F := Ideal) 𝒱₀ c none i M2 h2 M3 h3 M4 h4 M5 h5 M6 h6
          (View.readAt (Elt Ideal) M2.view (Rect.unit (s := S3x8x256) ![0, 0, 0] S1x8x256.size inb_S3x8x256_S1x8x256_0_0_0).toLoadRect (h2.unread x2))
          (View.readAt (Elt Ideal) M2.view (Rect.unit (s := S3x8x256) ![1, 0, 0] S1x8x256.size inb_S3x8x256_S1x8x256_1_0_0).toLoadRect (h2.unread x2))
          (View.readAt (Elt Ideal) M2.view (Rect.unit (s := S3x8x256) ![2, 0, 0] S1x8x256.size inb_S3x8x256_S1x8x256_2_0_0).toLoadRect (h2.unread x2))
          (h3.unread x3) (h5.unread x5) (M6.view.writes (Elt Ideal) M6.view.junk runLater.sl.H6_1)
          (Scf.trips k0_t1_loop.lb k0_t1_loop.ub k0_t1_loop.st)).1 := by
    unfold runLater; rfl
  rw [e2, trips_sixteen, col_final, h5.read_unread x5]
  refine congrArg (min _) ?_
  exact Finset.fold_congr fun n _ => ptile_loaded M2 h2 x2 x3 b n m

end Cert.KernelIdeal.Val

end
-- ==== Proof.KI.Blocks.lean ====
/-
  The two input blocks of a grid point as entries of the argument arrays.

  The program transposes each point cloud to (coordinate, batch, point) before the region. Point `t` of the grid is row
  tile `t mod 16` of batch group `t / 16`: its prediction block is coordinates × the group's 8 batches × the tile's 256
  points, its target block coordinates × the group's 8 batches × all 4096 points. So entry (d, b, n) of the prediction
  block is coordinate `d` of point `256 (t mod 16) + n` of batch `8 (t / 16) + b`, and entry (d, b, m) of the target
  block is coordinate `d` of point `m` of that batch.
-/
import proofs.«140327_j80092550135919_1_alg».proof.Proof.Gen.KernelIdeal.Frame
import proofs.«140327_j80092550135919_1_alg».proof.Proof.Gen.KernelIdeal.Launch
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

theorem t_lt (t : Fin cfg0.N) : t.val < 32 := lt_of_lt_of_eq t.isLt (show cfg0.N = 32 from N_0)

/-- The batch of row `b` of point `t`'s blocks, and the prediction point of column `n` of its prediction block. -/
def batchOf (t : Fin cfg0.N) (b : Fin 8) : Fin 16 := ⟨8 * (t.val / 16) + b.val, by have := t_lt t; have := b.isLt; omega⟩
def pointOf (t : Fin cfg0.N) (n : Fin 256) : Fin 4096 := ⟨256 * (t.val % 16) + n.val, by have := n.isLt; omega⟩

/-- The two point clouds as the program is launched with them. -/
abbrev argP (c : Dev nD) : Vec F S16x4096x3 .f32 := m ((c : Thread nD τ).loc main_arg0)
abbrev argT (c : Dev nD) : Vec F S16x4096x3 .f32 := m ((c : Thread nD τ).loc main_arg1)

/-- The block indices of the two input windows at a grid point: the prediction window sits at batch group `t / 16` and
    row tile `t mod 16`, the target window at batch group `t / 16` over all points; both span all three coordinates. -/
private theorem idx_facts : ∀ t : Fin cfg0.N,
    win0_0.index t (0 : Fin 3) = 0 ∧ win0_0.index t (1 : Fin 3) = t.val / 16 ∧ win0_0.index t (2 : Fin 3) = t.val % 16
    ∧ win0_1.index t (0 : Fin 3) = 0 ∧ win0_1.index t (1 : Fin 3) = t.val / 16 ∧ win0_1.index t (2 : Fin 3) = 0 :=
  (by decide +kernel : ∀ t : Fin grid0.N, _)

/-- The prediction window's array, when the region is entered, is the first cloud with the coordinate axis moved to the
    front. -/
private theorem V_main_v0 (c : Dev nD) :
    (V m c main_v0 : S3x16x4096.Idx → Elt F .f32)
      = transpose S3x16x4096 [2, 0, 1] (argP m c) transposes_S16x4096x3_S3x16x4096_2_0_1 := by
  show StableHlo.after hostOps0 (fun b => m (c, b)) (Proc.devRef .tc main_v0) = _
  after_results

/-- The target window's array, when the region is entered, is the second cloud with the coordinate axis moved to the
    front. -/
private theorem V_main_v1 (c : Dev nD) :
    (V m c main_v1 : S3x16x4096.Idx → Elt F .f32)
      = transpose S3x16x4096 [2, 0, 1] (argT m c) transposes_S16x4096x3_S3x16x4096_2_0_1 := by
  show StableHlo.after hostOps0 (fun b => m (c, b)) (Proc.devRef .tc main_v1) = _
  after_results

/-- Entry (d, b, n) of a cloud rearranged to (coordinate, batch, point) is entry (b, n, d) of the cloud. -/
private theorem transpose_read {α : Type} (x : S16x4096x3.Idx → α) (d : Fin 3) (b : Fin 16) (n : Fin 4096) :
    transpose S3x16x4096 [2, 0, 1] x transposes_S16x4096x3_S3x16x4096_2_0_1 (ix3 d b n) = x (ix3 b n d) :=
  transpose_apply [2, 0, 1] x transposes_S16x4096x3_S3x16x4096_2_0_1 (ix3 d b n) (ix3 b n d)
    (fun a => match a with | ⟨0, _⟩ => rfl | ⟨1, _⟩ => rfl | ⟨2, _⟩ => rfl)

/-- Where entry (d, b, n) of point `t`'s prediction block sits in the rearranged array: per axis, block index times block
    extent plus the coordinate inside the block. -/
private theorem pemb (t : Fin cfg0.N) (d : Fin 3) (b : Fin 8) (n : Fin 256) :
    ((cfg0.win 0).blk t).view.emb (ix3 d b n) = (ix3 d (batchOf t b) (pointOf t n) : S3x16x4096.Idx) := by
  obtain ⟨e0, e1, e2, -, -, -⟩ := idx_facts t
  funext a; apply Fin.ext
  match a with
  | ⟨0, _⟩ => show win0_0.index t (0 : Fin 3) * 3 + 1 * d.val = d.val; omega
  | ⟨1, _⟩ => show win0_0.index t (1 : Fin 3) * 8 + 1 * b.val = 8 * (t.val / 16) + b.val; omega
  | ⟨2, _⟩ => show win0_0.index t (2 : Fin 3) * 256 + 1 * n.val = 256 * (t.val % 16) + n.val; omega

/-- Where entry (d, b, m) of point `t`'s target block sits in the rearranged array. -/
private theorem temb (t : Fin cfg0.N) (d : Fin 3) (b : Fin 8) (mm : Fin 4096) :
    ((cfg0.win 1).blk t).view.emb (ix3 d b mm) = (ix3 d (batchOf t b) mm : S3x16x4096.Idx) := by
  obtain ⟨-, -, -, e0, e1, e2⟩ := idx_facts t
  funext a; apply Fin.ext
  match a with
  | ⟨0, _⟩ => show win0_1.index t (0 : Fin 3) * 3 + 1 * d.val = d.val; omega
  | ⟨1, _⟩ => show win0_1.index t (1 : Fin 3) * 8 + 1 * b.val = 8 * (t.val / 16) + b.val; omega
  | ⟨2, _⟩ => show win0_1.index t (2 : Fin 3) * 4096 + 1 * mm.val = mm.val; omega

/-- The prediction block of point `t`. -/
theorem pblk_apply (c : Dev nD) (t : Fin cfg0.N) (d : Fin 3) (b : Fin 8) (n : Fin 256) :
    (iblk m c 0 t : Vec F S3x8x256 .f32) (ix3 d b n) = argP m c (ix3 (batchOf t b) (pointOf t n) d) := by
  unfold iblk
  show (V m c main_v0 : S3x16x4096.Idx → Elt F .f32) (((cfg0.win 0).blk t).view.emb (ix3 d b n)) = _
  refine (congrArg (V m c main_v0 : S3x16x4096.Idx → Elt F .f32) (pemb t d b n)).trans ?_
  refine (congrFun (V_main_v0 m c) _).trans ?_
  exact transpose_read (argP m c) d (batchOf t b) (pointOf t n)

/-- The target block of point `t`. -/
theorem tblk_apply (c : Dev nD) (t : Fin cfg0.N) (d : Fin 3) (b : Fin 8) (mm : Fin 4096) :
    (iblk m c 1 t : Vec F S3x8x4096 .f32) (ix3 d b mm) = argT m c (ix3 (batchOf t b) mm d) := by
  unfold iblk
  show (V m c main_v1 : S3x16x4096.Idx → Elt F .f32) (((cfg0.win 1).blk t).view.emb (ix3 d b mm)) = _
  refine (congrArg (V m c main_v1 : S3x16x4096.Idx → Elt F .f32) (temb t d b mm)).trans ?_
  refine (congrFun (V_main_v1 m c) _).trans ?_
  exact transpose_read (argT m c) d (batchOf t b) mm

end Cert.KernelIdeal.Val

end
-- ==== Proof.KI.GridValue.lean ====
/-
  The two output blocks after each grid point, in terms of the argument point clouds.

  Point `t` is row tile `t mod 16` of batch group `t / 16`. Its distance tile is the distance array restricted to
  the group's 8 batches, the tile's 256 prediction points and all target points. So the row-minimum block of point `t`
  is the row minima of those batches and prediction points; and the column-minimum block after point `t`, which folds
  the group's tiles `0 … t mod 16` one after the other from +∞, is the least distance over the prediction points
  `0 … 256 (t mod 16) + 255`: the minimum taken 256 at a time, `t mod 16 + 1` chunks so far. After the group's
  sixteenth tile that is the column minimum.
-/
import proofs.«140327_j80092550135919_1_alg».proof.Proof.KI.Point
import proofs.«140327_j80092550135919_1_alg».proof.Proof.KI.BodyValue
import proofs.«140327_j80092550135919_1_alg».proof.Proof.KI.Blocks
import proofs.«140327_j80092550135919_1_alg».proof.Proof.Spec
import Idealize.ShloMosaic.Lib.ValueIdx

set_option maxRecDepth 16384

noncomputable section

namespace Cert.KernelIdeal.Val

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ)

/-- The distances from the prediction points of batch `b` to target point `mm`, the prediction point a natural number
    (+∞ past the last one, so that the function is total). -/
def distN (P T : Cloud.Idx → EReal) (b : Fin 16) (mm : Fin 4096) (n' : ℕ) : EReal :=
  if h : n' < 4096 then dist P T b ⟨n', h⟩ mm else inf32

/-- +∞ is the unit of `min`. -/
private theorem min_inf32_left (x : EReal) : min inf32 x = x :=
  min_eq_right (le_of_le_of_eq le_top inf32_eq_top.symm)

/-- At a prediction point of tile `t mod 16` the total distance function is the distance. -/
private theorem distN_pointOf (P T : Cloud.Idx → EReal) (bb : Fin 16) (mm : Fin 4096) (t : Fin cfg0.N) (n : Fin 256) :
    distN P T bb mm (256 * (t.val % 16) + n.val) = dist P T bb (pointOf t n) mm := by
  unfold distN
  exact dif_pos (pointOf t n).isLt

/-- One more chunk: the minimum over the prediction points of tile `t mod 16` is folded in. -/
private theorem chunkFold_succ_tile (P T : Cloud.Idx → EReal) (bb : Fin 16) (mm : Fin 4096) (t : Fin cfg0.N) :
    chunkFold (distN P T bb mm) (t.val % 16 + 1)
      = min (chunkFold (distN P T bb mm) (t.val % 16)) (min256 fun n => dist P T bb (pointOf t n) mm) :=
  (show chunkFold (distN P T bb mm) (t.val % 16 + 1)
      = min (chunkFold (distN P T bb mm) (t.val % 16)) (min256 fun j => distN P T bb mm (256 * (t.val % 16) + j.val)) from rfl).trans
    (congrArg (fun f : Fin 256 → EReal => min (chunkFold (distN P T bb mm) (t.val % 16)) (min256 f))
      (funext fun n => distN_pointOf P T bb mm t n))

/-- The tile of point `t` is the distance array there. -/
theorem btile_eq (c : Dev nD) (t : Fin cfg0.N) (b : Fin 8) (n : Fin 256) (mm : Fin 4096) :
    btile (pblk m c t) (tblk m c t) b n mm = dist (argP m c) (argT m c) (batchOf t b) (pointOf t n) mm := by
  unfold btile Cert.Chamfer.dist
  rw [show pblk m c t (ix3 0 b n) = _ from pblk_apply m c t 0 b n,
    show pblk m c t (ix3 1 b n) = _ from pblk_apply m c t 1 b n,
    show pblk m c t (ix3 2 b n) = _ from pblk_apply m c t 2 b n,
    show tblk m c t (ix3 0 b mm) = _ from tblk_apply m c t 0 b mm,
    show tblk m c t (ix3 1 b mm) = _ from tblk_apply m c t 1 b mm,
    show tblk m c t (ix3 2 b mm) = _ from tblk_apply m c t 2 b mm]

/-- The row-minimum block after point `t`. -/
theorem outs_row (c : Dev nD) (t : Fin cfg0.N) (b : Fin 8) (n : Fin 256) :
    (outsAt m c t.val t.isLt).1 (ix2 b n) = rowMin (argP m c) (argT m c) (batchOf t b) (pointOf t n) := by
  unfold rowMin
  by_cases h0 : t.val % 16 = 0
  · refine (congrArg (fun p => p.1 (ix2 b n)) (outsAt_first m c t h0)).trans ?_
    refine (rowFirst_apply c _ _ _ _ _ _ _ _ _ _ _ _ _ _ b n).trans ?_
    exact congrArg min4096 (funext fun mm => btile_eq m c t b n mm)
  · refine (congrArg (fun p => p.1 (ix2 b n)) (outsAt_later m c t h0)).trans ?_
    refine (rowLater_apply c _ _ _ _ _ _ _ _ _ _ _ _ _ _ _ b n).trans ?_
    exact congrArg min4096 (funext fun mm => btile_eq m c t b n mm)

/-- The column-minimum block after a first tile: one chunk from +∞. -/
private theorem col_first (c : Dev nD) (t : Fin cfg0.N) (h0 : t.val % 16 = 0) (b : Fin 8) (mm : Fin 4096) :
    (outsAt m c t.val t.isLt).2 (ix2 b mm)
      = chunkFold (distN (argP m c) (argT m c) (batchOf t b) mm) (t.val % 16 + 1) := by
  refine (congrArg (fun p => p.2 (ix2 b mm)) (outsAt_first m c t h0)).trans ?_
  refine (colFirst_apply c _ _ _ _ _ _ _ _ _ _ _ _ _ _ b mm).trans ?_
  refine Eq.trans ?_ (chunkFold_succ_tile (argP m c) (argT m c) (batchOf t b) mm t).symm
  have hz : chunkFold (distN (argP m c) (argT m c) (batchOf t b) mm) (t.val % 16) = inf32 := by
    rw [h0]; rfl
  rw [hz, min_inf32_left]
  exact congrArg min256 (funext fun n => btile_eq m c t b n mm)

/-- The column-minimum block after a later tile: the tile's chunk folded into what the tile before left. -/
private theorem col_later (c : Dev nD) (t : Fin cfg0.N) (h0 : ¬t.val % 16 = 0) (b : Fin 8) (mm : Fin 4096) :
    (outsAt m c t.val t.isLt).2 (ix2 b mm)
      = min ((outsAt m c (t.val - 1) (Nat.lt_of_le_of_lt (Nat.sub_le _ _) t.isLt)).2 (ix2 b mm))
          (min256 fun n => dist (argP m c) (argT m c) (batchOf t b) (pointOf t n) mm) := by
  refine (congrArg (fun p => p.2 (ix2 b mm)) (outsAt_later m c t h0)).trans ?_
  refine (colLater_apply c _ _ _ _ _ _ _ _ _ _ _ _ _ _ _ b mm).trans ?_
  exact congrArg (fun f : Fin 256 → EReal => min _ (min256 f)) (funext fun n => btile_eq m c t b n mm)

/-- The column-minimum block after point `t`, by induction on the point. -/
private theorem outs_col_aux (c : Dev nD) (b : Fin 8) (mm : Fin 4096) : ∀ (k : ℕ) (t : Fin cfg0.N), t.val = k →
    (outsAt m c t.val t.isLt).2 (ix2 b mm)
      = chunkFold (distN (argP m c) (argT m c) (batchOf t b) mm) (t.val % 16 + 1) := by
  intro k
  induction k with
  | zero =>
    intro t ht
    exact col_first m c t (by rw [ht]) b mm
  | succ k ih =>
    intro t ht
    by_cases h0 : t.val % 16 = 0
    · exact col_first m c t h0 b mm
    · have hlt : t.val - 1 < cfg0.N := Nat.lt_of_le_of_lt (Nat.sub_le _ _) t.isLt
      have hprev := ih ⟨t.val - 1, hlt⟩ (show t.val - 1 = k by omega)
      have hb : batchOf ⟨t.val - 1, hlt⟩ b = batchOf t b := by
        apply Fin.ext
        show 8 * ((t.val - 1) / 16) + b.val = 8 * (t.val / 16) + b.val
        omega
      have hk : (t.val - 1) % 16 + 1 = t.val % 16 := by omega
      refine (col_later m c t h0 b mm).trans ?_
      refine Eq.trans ?_ (chunkFold_succ_tile (argP m c) (argT m c) (batchOf t b) mm t).symm
      refine congrArg (fun x : EReal => min x _) ?_
      refine hprev.trans ?_
      show chunkFold (distN (argP m c) (argT m c) (batchOf ⟨t.val - 1, hlt⟩ b) mm) ((t.val - 1) % 16 + 1) = _
      rw [hb, hk]

/-- The column-minimum block after point `t`: the group's tiles so far, 256 prediction points at a time. -/
theorem outs_col (c : Dev nD) (t : Fin cfg0.N) (b : Fin 8) (mm : Fin 4096) :
    (outsAt m c t.val t.isLt).2 (ix2 b mm) = chunkFold (distN (argP m c) (argT m c) (batchOf t b) mm) (t.val % 16 + 1) :=
  outs_col_aux m c b mm t.val t rfl

/-- After a group's sixteenth tile it is the column minimum. -/
theorem outs_col_last (c : Dev nD) (t : Fin cfg0.N) (h15 : t.val % 16 = 15) (b : Fin 8) (mm : Fin 4096) :
    (outsAt m c t.val t.isLt).2 (ix2 b mm) = colMin (argP m c) (argT m c) (batchOf t b) mm := by
  refine (outs_col m c t b mm).trans ?_
  rw [h15]
  refine (chunkFold_sixteen _).trans ?_
  unfold colMin
  refine congrArg min4096 (funext fun n => ?_)
  unfold distN
  exact dif_pos n.isLt

end Cert.KernelIdeal.Val

end
-- ==== Proof.KI.Arrays.lean ====
/-
  The two result arrays after the region.

  The row-minimum array is written back block by block, one block per grid point, and the blocks tile it: batch group ×
  row tile. The column-minimum array is written back once per batch group, after the group's sixteenth tile, one block
  of 8 batches × all 4096 target points; the two groups' blocks tile it. Each written block is the restriction of one
  whole-array function — the row minima, the column minima — so the arrays end holding those functions.
-/
import proofs.«140327_j80092550135919_1_alg».proof.Proof.KI.Point
import proofs.«140327_j80092550135919_1_alg».proof.Proof.KI.GridValue
import proofs.«140327_j80092550135919_1_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ)

/-- The block indices of the two result windows at a grid point: the row-minimum window sits at batch group `t / 16`
    and row tile `t mod 16`, the column-minimum window at batch group `t / 16` over all target points. -/
private theorem result_block_index : ∀ t : Fin cfg0.N,
    win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

/-- Where entry (b, n) of point `t`'s row-minimum block sits in the row-minimum array: per axis, block index times
    block extent plus the coordinate inside the block. -/
private theorem row_block_emb (t : Fin cfg0.N) (b : Fin 8) (n : Fin 256) :
    ((cfg0.win 2).blk t).view.emb (ix2 b n) = (ix2 (batchOf t b) (pointOf t n) : S16x4096.Idx) := by
  obtain ⟨e0, e1, -, -⟩ := result_block_index t
  funext a; apply Fin.ext
  match a with
  | ⟨0, _⟩ => show win0_2.index t (0 : Fin 2) * 8 + 1 * b.val = 8 * (t.val / 16) + b.val; omega
  | ⟨1, _⟩ => show win0_2.index t (1 : Fin 2) * 256 + 1 * n.val = 256 * (t.val % 16) + n.val; omega

/-- Where entry (b, m) of point `t`'s column-minimum block sits in the column-minimum array. -/
private theorem col_block_emb (t : Fin cfg0.N) (b : Fin 8) (mm : Fin 4096) :
    ((cfg0.win 3).blk t).view.emb (ix2 b mm) = (ix2 (batchOf t b) mm : S16x4096.Idx) := by
  obtain ⟨-, -, e0, e1⟩ := result_block_index t
  funext a; apply Fin.ext
  match a with
  | ⟨0, _⟩ => show win0_3.index t (0 : Fin 2) * 8 + 1 * b.val = 8 * (t.val / 16) + b.val; omega
  | ⟨1, _⟩ => show win0_3.index t (1 : Fin 2) * 4096 + 1 * mm.val = mm.val; omega

/-- What point `t` writes back to the row-minimum array is its block of the row minima. -/
private theorem flushed_row (c : Dev nD) (t : Fin cfg0.N) :
    (dats m 0 c).flushed 2 t = ((cfg0.win 2).blk t).view.read (Elt Ideal) (rowArr (argP m c) (argT m c)) := by
  show (cfg0.win 2).cut (grid0.coords t) ((dats m 0 c).after 2 t) = _
  rw [after2]
  funext y
  obtain ⟨b, n, rfl⟩ : ∃ (b : Fin 8) (n : Fin 256), y = ix2 b n := ⟨y 0, y 1, eq_ix2 y⟩
  show (outsAt m c t.val t.isLt).1 (ix2 b n) = rowArr (argP m c) (argT m c) (((cfg0.win 2).blk t).view.emb (ix2 b n))
  rw [row_block_emb, rowArr_apply]
  exact outs_row m c t b n

/-- What a group's sixteenth tile writes back to the column-minimum array is its block of the column minima. -/
private theorem flushed_col (c : Dev nD) (t : Fin cfg0.N) (hf : (cfg0.win 3).flush t = true) :
    (dats m 0 c).flushed 3 t = ((cfg0.win 3).blk t).view.read (Elt Ideal) (colArr (argP m c) (argT m c)) := by
  have h15 : t.val % 16 = 15 := (flush0_3 t).mp hf
  show (cfg0.win 3).cut (grid0.coords t) ((dats m 0 c).after 3 t) = _
  rw [after3]
  funext y
  obtain ⟨b, mm, rfl⟩ : ∃ (b : Fin 8) (mm : Fin 4096), y = ix2 b mm := ⟨y 0, y 1, eq_ix2 y⟩
  show (outsAt m c t.val t.isLt).2 (ix2 b mm) = colArr (argP m c) (argT m c) (((cfg0.win 3).blk t).view.emb (ix2 b mm))
  rw [col_block_emb, colArr_apply]
  exact outs_col_last m c t h15 b mm

/-- An index of the row-minimum array is in point `t`'s block iff each coordinate is in the block's range on its axis. -/
private theorem mem_row (t : Fin cfg0.N) (i : S16x4096.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_0).slice (win0_2.rect t)).set ↔ _
  rw [View.set_slice_whole, Rect.mem_set_unit]
  exact Iff.rfl

/-- An index of the column-minimum array is in point `t`'s block iff each coordinate is in the block's range on its
    axis. -/
private theorem mem_col (t : Fin cfg0.N) (i : S16x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v2_1).slice (win0_3.rect t)).set ↔ _
  rw [View.set_slice_whole, Rect.mem_set_unit]
  exact Iff.rfl

/-- The row-minimum blocks tile their array: index (r, q) is in the block of tile `q / 256` of batch group `r / 8`,
    and every point writes its block back. -/
private theorem cover_row (i : S16x4096.Idx) :
    ∃ t : Fin cfg0.N, (cfg0.win 2).flush t = true ∧ i ∈ ((cfg0.win 2).blk t).view.set := by
  have h0 : (i 0).val < 16 := (i 0).isLt
  have h1 : (i 1).val < 4096 := (i 1).isLt
  have hN : cfg0.N = 32 := N_0
  obtain ⟨t, htv⟩ : ∃ t : Fin cfg0.N, t.val = 16 * ((i 0).val / 8) + (i 1).val / 256 :=
    ⟨⟨16 * ((i 0).val / 8) + (i 1).val / 256, by omega⟩, rfl⟩
  obtain ⟨e0, e1, -, -⟩ := result_block_index t
  refine ⟨t, flush0_2 t, ?_⟩
  rw [mem_row]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 256 ≤ (i 1).val ∧ (i 1).val < win0_2.index t (1 : Fin 2) * 256 + 256
    omega

/-- The column-minimum blocks tile their array: index (r, q) is in the block of batch group `r / 8`, which is written
    back after the group's sixteenth tile. -/
private theorem cover_col (i : S16x4096.Idx) :
    ∃ t : Fin cfg0.N, (cfg0.win 3).flush t = true ∧ i ∈ ((cfg0.win 3).blk t).view.set := by
  have h0 : (i 0).val < 16 := (i 0).isLt
  have h1 : (i 1).val < 4096 := (i 1).isLt
  have hN : cfg0.N = 32 := N_0
  obtain ⟨t, htv⟩ : ∃ t : Fin cfg0.N, t.val = 16 * ((i 0).val / 8) + 15 :=
    ⟨⟨16 * ((i 0).val / 8) + 15, by omega⟩, rfl⟩
  obtain ⟨-, -, e0, e1⟩ := result_block_index t
  refine ⟨t, (flush0_3 t).mpr (by omega), ?_⟩
  rw [mem_col]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 4096 ≤ (i 1).val ∧ (i 1).val < win0_3.index t (1 : Fin 2) * 4096 + 4096
    omega

/-- The row-minimum array after the region. -/
theorem arr_row (c : Dev nD) :
    (dats m 0 c).arrAt 2 cfg0.N = (rowArr (argP m c) (argT m c) : Buf (Elt Ideal) ((cfg0.win 2).arr.view.loc (c.tc : Thread nD τ))) := by
  exact (dats m 0 c).arrAt_eq_of_cover 2 _ (fun t _ => flushed_row m c t) cover_row

/-- The column-minimum array after the region. -/
theorem arr_col (c : Dev nD) :
    (dats m 0 c).arrAt 3 cfg0.N = (colArr (argP m c) (argT m c) : Buf (Elt Ideal) ((cfg0.win 3).arr.view.loc (c.tc : Thread nD τ))) := by
  exact (dats m 0 c).arrAt_eq_of_cover 3 _ (flushed_col m c) cover_col

end Cert.KernelIdeal.Val

end
-- ==== Proof.KI.Tail.lean ====
/-
  The program's last lines applied to the two result arrays.

  After the region the program takes each array's mean over its 4096 entries per batch, averages the two, and takes the
  mean over the 16 batches. These lines are kept as ONE function of the two arrays and never opened: the reference
  program ends with the same lines.
-/
import proofs.«140327_j80092550135919_1_alg».proof.Proof.KI.Point
import proofs.«140327_j80092550135919_1_alg».proof.Proof.Spec
import Idealize.ShloMosaic.Lib.ValueIdx
import Idealize.ShloMosaic.Lib.StableHlo.Run
import Idealize.ShloMosaic.Lib.Pipeline.FrameSuffix

set_option maxRecDepth 16384

noncomputable section

namespace Cert.KernelIdeal.Val

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ)

/-- The last lines as a function of the row-minimum array `R` and the column-minimum array `C`. -/
def tailK (R C : (⟨S16x4096, .f32⟩ : BufTy).Contents (Elt Ideal)) : (⟨S_, .f32⟩ : BufTy).Contents (Elt Ideal) :=
  Host.divf
    (Host.reduceAdd
      (Host.divf
        (addf (Host.divf (Host.reduceAdd R (constant (F := Ideal) S_ .f32 0x00000000#32) reducesTo_S16x4096_S16_d1 h_S_)
                (broadcastInDim S16 ![] bcast_S_S16 (constant (F := Ideal) S_ .f32 0x45800000#32)))
              (Host.divf (Host.reduceAdd C (constant (F := Ideal) S_ .f32 0x00000000#32) reducesTo_S16x4096_S16_d1 h_S_)
                (broadcastInDim S16 ![] bcast_S_S16 (constant (F := Ideal) S_ .f32 0x45800000#32))))
        (broadcastInDim S16 ![] bcast_S_S16 (constant (F := Ideal) S_ .f32 0x40000000#32)))
      (constant (F := Ideal) S_ .f32 0x00000000#32) reducesTo_S16_S_d0 h_S_)
    (constant (F := Ideal) S_ .f32 0x41800000#32)

/-- The program's result after the run: the last lines applied to the two arrays as the region left them. -/
theorem result_eq (c : Dev nD) :
    Pipeline.afterTail₀ cfgs (dats m) 0 (V0 m) [hostOps1] c main_v13
      = tailK ((dats m 0 c).arrAt 2 cfg0.N) ((dats m 0 c).arrAt 3 cfg0.N) := by
  unfold Pipeline.afterTail₀
  show StableHlo.after hostOps1 _ (Proc.devRef .tc main_v13) = _
  after_results
  have h2 : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) (fun w => (dats m 0 c).arrAt w (cfgs 0).N) 2
  have h3 : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) (fun w => (dats m 0 c).arrAt w (cfgs 0).N) 3
  rw [h2, h3]
  rfl

end Cert.KernelIdeal.Val

end
-- ==== Proof.KI.KernelValue.lean ====
/-
  What the idealized kernel program computes.

  Run from any memory, the program ends with its result at the last lines (two per-batch means, their average, the mean
  over batches) applied to the row minima and the column minima of the two argument point clouds, and with the two
  point clouds as they were.
-/
import proofs.«140327_j80092550135919_1_alg».proof.Proof.KI.Point
import proofs.«140327_j80092550135919_1_alg».proof.Proof.KI.Arrays
import proofs.«140327_j80092550135919_1_alg».proof.Proof.KI.Tail
import proofs.«140327_j80092550135919_1_alg».proof.Proof.Spec

set_option maxRecDepth 16384

noncomputable section

namespace Cert.KernelIdeal.Val

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ) (ρ : Dev nD → PrngReg)

theorem kernel_value :
    θ_run (defs (F := Ideal)) (onTc (τ := τ) (main (F := Ideal))) ⟨m, fun _ => 0, ρ⟩ (fun r => ∀ c : Dev nD,
      r.2.mem ((c.tc : Thread nD τ).loc main_v13) = tailK (rowArr (argP m c) (argT m c)) (colArr (argP m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main m ρ)
  · refine ((h c).2 main_v13 (Pipeline.mem_restRefs_of main_v13 (by decide) (by decide))).trans ?_
    refine (result_eq m c).trans ?_
    rw [arr_row m c, arr_col m c]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Val

end
-- ==== Proof.RefValue.lean ====
/-
  The reference program's stages as the specification.

  The reference computes every pairwise distance at once — ‖p‖² and ‖t‖² as sums over the three coordinates from 0, the
  inner products as one contraction — and then the two minima as reductions over an axis from +∞. Entry by entry its
  distance array is `dist` (the sums `0 + (a + b + c)` regrouped), and its two reductions are `rowArr` and `colArr`.
  The lines after that (two means, their average, the mean over batches) are the kernel program's last lines too: they
  are kept as one function of the two minimum arrays and never opened.
-/
import proofs.«140327_j80092550135919_1_alg».proof.Proof.Gen.ReferenceIdeal.Read
import proofs.«140327_j80092550135919_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Chamfer
open Idealize.ShloMosaic Idealize.ShloMosaic.TcCoe Idealize.ShloMosaic.ValueIdx Idealize.SL.Sem

/-- The prediction point's coordinate index, through the broadcasts. -/
private theorem idxP (b : Fin 16) (n m : Fin 4096) (k : Fin 3) :
    idx_main_v1 (idx_main_v5 (idx_main_v7 (ix3 b n m))) k = ix3 b n k := by
  funext a; match a with | ⟨0, _⟩ => rfl | ⟨1, _⟩ => rfl | ⟨2, _⟩ => rfl

/-- The target point's coordinate index, through the broadcasts. -/
private theorem idxT (b : Fin 16) (n m : Fin 4096) (k : Fin 3) :
    idx_main_v3 (idx_main_v6 (idx_main_v8 (ix3 b n m))) k = ix3 b m k := by
  funext a; match a with | ⟨0, _⟩ => rfl | ⟨1, _⟩ => rfl | ⟨2, _⟩ => rfl

/-- The contraction's left index at coordinate k. -/
private theorem lidxP (b : Fin 16) (n m : Fin 4096) (k : Fin 3) :
    lidx_main_v4 (ix3 b n m) k = ix3 b n k := by
  funext a; match a with | ⟨0, _⟩ => rfl | ⟨1, _⟩ => rfl | ⟨2, _⟩ => rfl

/-- The contraction's right index at coordinate k. -/
private theorem ridxT (b : Fin 16) (n m : Fin 4096) (k : Fin 3) :
    ridx_main_v4 (ix3 b n m) k = ix3 b m k := by
  funext a; match a with | ⟨0, _⟩ => rfl | ⟨1, _⟩ => rfl | ⟨2, _⟩ => rfl

/-- The distance array, entry by entry. -/
theorem v15_apply (x0 x1 : (⟨S16x4096x3, .f32⟩ : BufTy).Contents (Elt Ideal)) (b : Fin 16) (n m : Fin 4096) :
    val_main_v15 (F := Ideal) x0 x1 (ix3 b n m) = dist x0 x1 b n m := by
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply, val_main_cst_apply, val_main_cst_0_apply, val_main_cst_1_apply, val_main_cst_2_apply]
  simp only [idxP, idxT, lidxP, ridxT, Fin.sum_univ_three, val_main_v0_apply, val_main_v2_apply]
  simp only [Ideal.ofBits_def, Ideal.addf_def, Ideal.subf_def, Ideal.mulf_def, Ideal.maximumf_def, Ideal.hostUnary_sqrt_def,
    Ideal.ofBits_zero_f32, zero_add]
  unfold Cert.Chamfer.dist dist6
  rw [show zero32 = 0 from Ideal.ofBits_zero_f32]

/-- A pair (b, n) with the third coordinate k put back is (b, n, k). -/
private theorem lift_d2 (hr : S16x4096x4096.Reduces [2] S16x4096) (b : Fin 16) (n : Fin 4096)
    (k : Fin (S16x4096x4096.size 2)) : hr.lift (ix2 b n) k = ix3 b n (⟨k.val, k.isLt⟩ : Fin 4096) := by
  funext c; apply Fin.ext
  match c with | ⟨0, _⟩ => rfl | ⟨1, _⟩ => rfl | ⟨2, _⟩ => rfl

/-- A pair (b, m) with the second coordinate k put back is (b, k, m). -/
private theorem lift_d1 (hr : S16x4096x4096.Reduces [1] S16x4096) (b : Fin 16) (m : Fin 4096)
    (k : Fin (S16x4096x4096.size 1)) : hr.lift (ix2 b m) k = ix3 b (⟨k.val, k.isLt⟩ : Fin 4096) m := by
  funext c; apply Fin.ext
  match c with | ⟨0, _⟩ => rfl | ⟨1, _⟩ => rfl | ⟨2, _⟩ => rfl

/-- The minimum over the third axis from +∞, read at (b, n): the minimum over m of the entries (b, n, m). -/
private theorem reduce_d2_apply (x : (⟨S16x4096x4096, .f32⟩ : BufTy).Contents (Elt Ideal)) (b : Fin 16) (n : Fin 4096) :
    Host.reduce (FloatOps.minimumf (F := Ideal) (φ := .f32)) x (val_main_cst_3 (F := Ideal)) reducesTo_S16x4096x4096_S16x4096_d2 h_S_ (ix2 b n)
      = min4096 fun m => x (ix3 b n m) := by
  have hr : S16x4096x4096.Reduces [2] S16x4096 := by decide
  refine (Host.reduce_eq_fold_single (FloatOps.minimumf (F := Ideal) (φ := .f32)) x _ reducesTo_S16x4096x4096_S16x4096_d2 hr h_S_ (ix2 b n)).trans ?_
  have hf : (x ∘ hr.lift (ix2 b n)) = fun m : Fin 4096 => x (ix3 b n m) := funext fun k => congrArg x (lift_d2 hr b n k)
  exact congrArg (fun f => Finset.fold min inf32 f (Finset.univ : Finset (Fin 4096))) hf

/-- The minimum over the second axis from +∞, read at (b, m): the minimum over n of the entries (b, n, m). -/
private theorem reduce_d1_apply (x : (⟨S16x4096x4096, .f32⟩ : BufTy).Contents (Elt Ideal)) (b : Fin 16) (m : Fin 4096) :
    Host.reduce (FloatOps.minimumf (F := Ideal) (φ := .f32)) x (val_main_cst_6 (F := Ideal)) reducesTo_S16x4096x4096_S16x4096_d1 h_S_ (ix2 b m)
      = min4096 fun n => x (ix3 b n m) := by
  have hr : S16x4096x4096.Reduces [1] S16x4096 := by decide
  refine (Host.reduce_eq_fold_single (FloatOps.minimumf (F := Ideal) (φ := .f32)) x _ reducesTo_S16x4096x4096_S16x4096_d1 hr h_S_ (ix2 b m)).trans ?_
  have hf : (x ∘ hr.lift (ix2 b m)) = fun n : Fin 4096 => x (ix3 b n m) := funext fun k => congrArg x (lift_d1 hr b m k)
  exact congrArg (fun f => Finset.fold min inf32 f (Finset.univ : Finset (Fin 4096))) hf

/-- The minimum over the target points: the row minima. -/
theorem v16_eq (x0 x1 : (⟨S16x4096x3, .f32⟩ : BufTy).Contents (Elt Ideal)) :
    val_main_v16 (F := Ideal) x0 x1 = rowArr x0 x1 := by
  funext j
  obtain ⟨b, n, rfl⟩ : ∃ (b : Fin 16) (n : Fin 4096), j = ix2 b n := ⟨j 0, j 1, eq_ix2 j⟩
  rw [rowArr_apply]
  unfold val_main_v16 rowMin
  refine (reduce_d2_apply (val_main_v15 (F := Ideal) x0 x1) b n).trans ?_
  exact congrArg min4096 (funext fun m => v15_apply x0 x1 b n m)

/-- The minimum over the prediction points: the column minima. -/
theorem v20_eq (x0 x1 : (⟨S16x4096x3, .f32⟩ : BufTy).Contents (Elt Ideal)) :
    val_main_v20 (F := Ideal) x0 x1 = colArr x0 x1 := by
  funext j
  obtain ⟨b, m, rfl⟩ : ∃ (b : Fin 16) (m : Fin 4096), j = ix2 b m := ⟨j 0, j 1, eq_ix2 j⟩
  rw [colArr_apply]
  unfold val_main_v20 colMin
  refine (reduce_d1_apply (val_main_v15 (F := Ideal) x0 x1) b m).trans ?_
  exact congrArg min4096 (funext fun n => v15_apply x0 x1 b n m)

/-- The program's last lines as ONE function of the two minimum arrays: each array's mean over its 4096 entries per
    batch, the two averaged, the mean over the 16 batches. -/
def tail (R C : (⟨S16x4096, .f32⟩ : BufTy).Contents (Elt Ideal)) : (⟨S_, .f32⟩ : BufTy).Contents (Elt Ideal) :=
  Host.divf
    (Host.reduceAdd
      (Host.divf
        (addf (Host.divf (Host.reduceAdd R (constant (F := Ideal) S_ .f32 0x00000000#32) reducesTo_S16x4096_S16_d1 h_S_)
                (broadcastInDim S16 ![] bcast_S_S16 (constant (F := Ideal) S_ .f32 0x45800000#32)))
              (Host.divf (Host.reduceAdd C (constant (F := Ideal) S_ .f32 0x00000000#32) reducesTo_S16x4096_S16_d1 h_S_)
                (broadcastInDim S16 ![] bcast_S_S16 (constant (F := Ideal) S_ .f32 0x45800000#32))))
        (broadcastInDim S16 ![] bcast_S_S16 (constant (F := Ideal) S_ .f32 0x40000000#32)))
      (constant (F := Ideal) S_ .f32 0x00000000#32) reducesTo_S16_S_d0 h_S_)
    (constant (F := Ideal) S_ .f32 0x41800000#32)

/-- The reference's result is those lines applied to its two minimum arrays. -/
theorem v28_eq_tail (x0 x1 : (⟨S16x4096x3, .f32⟩ : BufTy).Contents (Elt Ideal)) :
    val_main_v28 (F := Ideal) x0 x1 = tail (val_main_v16 x0 x1) (val_main_v20 x0 x1) := by
  rfl

/-- So the reference's result is the last lines applied to the row minima and the column minima. -/
theorem result_eq (x0 x1 : (⟨S16x4096x3, .f32⟩ : BufTy).Contents (Elt Ideal)) :
    val_main_v28 (F := Ideal) x0 x1 = tail (rowArr x0 x1) (colArr x0 x1) := by
  rw [v28_eq_tail, v16_eq, v20_eq]

end Cert.ReferenceIdeal.RefValue

end
-- ==== Proof.RefRun.lean ====
/-
  What the idealized reference program computes, and its frame.

  Run from any memory, the reference program ends with its result at the last lines applied to the row minima and the
  column minima of its two argument point clouds, and with the point clouds as they were; in particular it runs to the
  end without a fault and keeps its arguments.
-/
import proofs.«140327_j80092550135919_1_alg».proof.Defs
import proofs.«140327_j80092550135919_1_alg».proof.Proof.Gen.ReferenceIdeal
import proofs.«140327_j80092550135919_1_alg».proof.Proof.Gen.ReferenceIdeal.Run
import proofs.«140327_j80092550135919_1_alg».proof.Proof.Gen.ReferenceIdeal.Read
import proofs.«140327_j80092550135919_1_alg».proof.Proof.RefValue
import proofs.«140327_j80092550135919_1_alg».proof.Proof.Spec

noncomputable section

namespace Cert.ReferenceIdeal.RefValue

open Cert.ReferenceIdeal Cert.ReferenceIdeal.Gen Cert.Chamfer
open Idealize.ShloMosaic Idealize.ShloMosaic.TcCoe Idealize.ShloMosaic.ValueIdx Idealize.SL.Sem

variable (m : (ℓ : Loc nD τ sig) → Buf (Elt Ideal) ℓ) (ρ : Dev nD → PrngReg)

/-- The two point clouds as the reference program is launched with them. -/
abbrev refP (c : Dev nD) : Vec Ideal S16x4096x3 .f32 := m ((c.tc : Thread nD τ).loc main_arg0)
abbrev refT (c : Dev nD) : Vec Ideal S16x4096x3 .f32 := m ((c.tc : Thread nD τ).loc main_arg1)

theorem ref_value :
    θ_run (defs (F := Ideal)) (onTc (τ := τ) (main (F := Ideal))) ⟨m, fun _ => 0, ρ⟩ (fun r => ∀ c : Dev nD,
      r.2.mem ((c.tc : Thread nD τ).loc main_v28) = tail (rowArr (refP m c) (refT m c)) (colArr (refP m c) (refT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨by rw [(h c).1, Read.val_main_v28_eq, result_eq], (h c).2⟩)
    (Value.run (F := Ideal) m ρ)

end Cert.ReferenceIdeal.RefValue

namespace Cert.Proof

/-- The reference program runs to the end, nothing faults, and its two arguments end as they were. -/
theorem frame_ri [hReferenceIdeal : Cert.ReferenceIdeal.Facts] [hPre_finite_inputs : Cert.Pre_finite_inputs.Facts] : Cert.frame_ReferenceIdeal :=
  fun m ρ _ => (Idealize.ShloMosaic.θ_run (Cert.ReferenceIdeal.defs (F := Idealize.ShloMosaic.Ideal)) _ _).mono (fun _ h c => (h c).2)
    (Cert.ReferenceIdeal.Value.run (F := Idealize.ShloMosaic.Ideal) m ρ)

end Cert.Proof

end
-- ==== Proof.lean ====
/-
  The certificate: a tiled bidirectional nearest-neighbour (Chamfer) distance against its one-shot reference.

  For two point clouds `P`, `T` (16 batches × 4096 points × 3 coordinates) both programs compute, per batch, the mean
  over `P`'s points of the distance to the nearest point of `T`, the mean over `T`'s points of the distance to the
  nearest point of `P`, average the two, and take the mean over the batches. The distance of a pair is
  `√(max(‖p‖² + ‖t‖² − 2·⟨p, t⟩, 0))`.

  The reference forms all 16 × 4096 × 4096 distances at once and reduces them twice by `min` from +∞. The kernel never
  forms them: it walks a grid of 2 batch groups × 16 tiles of 256 prediction points, and inside a tile a loop of 16
  chunks of 256 target points; a chunk's 8 × 256 × 256 distances are reduced over the target points into a row
  accumulator (reset to +∞ at every tile, copied out after the sixteenth chunk) and over the prediction points into the
  group's column-minimum block (reset to +∞ at a group's first tile, kept across its tiles, written back after the
  sixteenth). So the kernel's row minimum is a fold of `min` over sixteen chunks of target points and its column
  minimum a fold over sixteen tiles of prediction points, each chunk itself a fold from +∞.

  Over the extended reals the two are equal because `min` is associative and commutative with unit +∞ — the minimum
  taken 256 at a time, sixteen times, is the minimum — and because the three-term sums differ only in grouping
  (`(a + b) + c` against `0 + (a + b + c)`). No distributive law is used, so finiteness of the inputs is never needed.
  The lines after the minima are the same in both programs and are carried as one function of the two minimum arrays.

    frame_Kernel, frame_KernelIdeal — the body run once per control case (first tile of a group; a later tile) through
      the loop by its invariant, the contents of the two output blocks after each grid point by recursion on the point,
      the launch around the region and the lines after it (`K/`, `KI/`: Loop, Run, Point).
    frame_ReferenceIdeal — the reference's run with the result dropped (RefRun).
    preserves_Kernel_KernelIdeal — the idealization rewrote nothing.
    algebraic_KernelIdeal_ReferenceIdeal — the kernel's two result arrays are the row minima and the column minima
      (KI/ Payloads, Views, Stores, BodyValue: one trip, then the sixteen; Blocks, GridValue: a tile's blocks as entries
      of the clouds, then a group's sixteen tiles; Arrays: the written-back blocks tile the arrays), the reference's two
      reductions are the same (RefValue), and the last lines agree (Tail, KernelValue, RefRun).
-/
import proofs.«140327_j80092550135919_1_alg».proof.Defs
import proofs.«140327_j80092550135919_1_alg».proof.Proof.Gen.Kernel
import proofs.«140327_j80092550135919_1_alg».proof.Proof.Gen.KernelIdeal
import proofs.«140327_j80092550135919_1_alg».proof.Proof.Gen.ReferenceIdeal
import proofs.«140327_j80092550135919_1_alg».proof.Proof.Gen.Pre_finite_inputs
import proofs.«140327_j80092550135919_1_alg».proof.Proof.K.Point
import proofs.«140327_j80092550135919_1_alg».proof.Proof.KI.Point
import proofs.«140327_j80092550135919_1_alg».proof.Proof.KI.KernelValue
import proofs.«140327_j80092550135919_1_alg».proof.Proof.RefRun

noncomputable section

namespace Cert.Proof

open Idealize.ShloMosaic Idealize.ShloMosaic.TcCoe Idealize.SL.Sem Cert.Chamfer

/-- The word-level kernel runs to the end, nothing faults, and the two point clouds end as they were. -/
theorem frame_k : Cert.frame_Kernel (hKernel := Cert.Kernel.Gen.facts) (hPre_finite_inputs := Cert.Pre_finite_inputs.Gen.facts) :=
  fun m ρ _ => Cert.Kernel.Body.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The two programs' last lines are one function of the two minimum arrays. -/
theorem tail_eq (R C : (⟨Cert.KernelIdeal.S16x4096, .f32⟩ : BufTy).Contents (Elt Ideal)) :
    Cert.KernelIdeal.Val.tailK R C = Cert.ReferenceIdeal.RefValue.tail R C := rfl

/-- From memories that agree on the two point clouds both programs end with the same number: the last lines applied to
    the row minima and the column minima of the clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.tailK
      (rowArr (Cert.KernelIdeal.Val.argP m c) (Cert.KernelIdeal.Val.argT m c))
      (colArr (Cert.KernelIdeal.Val.argP m c) (Cert.KernelIdeal.Val.argT m c)),
    Cert.KernelIdeal.Val.kernel_value m ρ, ?_⟩
  refine (θ_run (Cert.ReferenceIdeal.defs (F := Ideal)) _ _).mono (fun r h c => ⟨?_, (h c).2⟩)
    (Cert.ReferenceIdeal.RefValue.ref_value m' ρ')
  rw [(h c).1]
  show Cert.ReferenceIdeal.RefValue.tail
      (rowArr (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
      (colArr (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))) = _
  rw [(hagree c).1, (hagree c).2]
  exact (tail_eq _ _).symm

theorem claim : Cert.Claim :=
  ⟨Cert.Kernel.Gen.facts, Cert.KernelIdeal.Gen.facts, Cert.ReferenceIdeal.Gen.facts, Cert.Pre_finite_inputs.Gen.facts,
    frame_k, frame_ki,
    frame_ri (hReferenceIdeal := Cert.ReferenceIdeal.Gen.facts) (hPre_finite_inputs := Cert.Pre_finite_inputs.Gen.facts),
    trivial, algebraic⟩

end Cert.Proof

end
